-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S200000x256 : Shape := ⟨2, ![200000, 256]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : IVec S100000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S100000 32 := broadcastInDim S100000 ![] bcast_S_S100000 main_c_6
  let main_v20 : IVec S100000 1 := cmpi .sge main_arg0 main_v19
  let main_c_7 : IVec S_ 1 := constantI S_ 1 1#1
  let main_v21 : IVec S_ 1 := (fun x v => Host.reduce IntOp.andi x v reducesTo_S100000_S_d0 h_S_) main_v20 main_c_7
  let main_v22 : IVec S_ 1 := andi main_v18 main_v21
  let main_c_8 : IVec S_ 32 := constantI S_ 32 200000#32
  let main_v23 : IVec S100000 32 := broadcastInDim S100000 ![] bcast_S_S100000 main_c_8
  let main_v24 : IVec S100000 1 := cmpi .slt main_arg0 main_v23
  let main_c_9 : IVec S_ 1 := constantI S_ 1 1#1
  let main_v25 : IVec S_ 1 := (fun x v => Host.reduce IntOp.andi x v reducesTo_S100000_S_d0 h_S_) main_v24 main_c_9
  let main_v26 : IVec S_ 1 := andi main_v22 main_v25
  main_v26

def fn {F : FTy → Type} [FloatOps F] (main_arg0 : IVec S100000 32) (main_arg1 : FVec F S200000x256 .f32) (main_arg2 : FVec F S200000x256 .f32) (main_arg3 : FVec F S256x256 .f32) (main_arg4 : FVec F S256 .f32) : IVec S_ 1 :=
  let main_v0 : FVec F S200000x256 .f32 := Host.absf main_arg1
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg2
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_v13 main_v16
-- ==== Kernel.lean ====
abbrev S100000 : Shape := ⟨1, ![100000]⟩
abbrev S200000x256 : Shape := ⟨2, ![200000, 256]⟩
abbrev S256x256 : Shape := ⟨2, ![256, 256]⟩
abbrev S256 : Shape := ⟨1, ![256]⟩
abbrev S_ : Shape := ⟨0, ![]⟩
abbrev S200000 : Shape := ⟨1, ![200000]⟩
abbrev S100000x1 : Shape := ⟨2, ![100000, 1]⟩
abbrev S200000x1 : Shape := ⟨2, ![200000, 1]⟩
abbrev S2x1x256 : Shape := ⟨3, ![2, 1, 256]⟩
abbrev S2000x256 : Shape := ⟨2, ![2000, 256]⟩
abbrev S2000x1 : Shape := ⟨2, ![2000, 1]⟩
abbrev S1x1x256 : Shape := ⟨3, ![1, 1, 256]⟩
abbrev S1x256 : Shape := ⟨2, ![1, 256]⟩

abbrev nBuf : Space → Nat
  | .hbm => 39
  | .vmem => 10
  | .smem => 0
  | _ => 0

abbrev bufTy : (tb : Table) → Fin (tcTables nBuf tb) → BufTy
  | .hbm, ⟨0, _⟩ => ⟨S100000, .i32⟩
  | .hbm, ⟨1, _⟩ => ⟨S200000x256, .f32⟩
  | .hbm, ⟨2, _⟩ => ⟨S200000x256, .f32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S200000, .i32⟩
  | .hbm, ⟨7, _⟩ => ⟨S_, .i32⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S_, .i32⟩
  | .hbm, ⟨20, _⟩ => ⟨S100000, .i32⟩
  | .hbm, ⟨21, _⟩ => ⟨S200000, .i32⟩
  | .hbm, ⟨22, _⟩ => ⟨S200000, .f32⟩
  | .hbm, ⟨23, _⟩ => ⟨S200000x1, .f32⟩
  | .hbm, ⟨24, _⟩ => ⟨S2x1x256, .f32⟩
  | .hbm, ⟨25, _⟩ => ⟨S2x1x256, .f32⟩
  | .hbm, ⟨26, _⟩ => ⟨S_, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S256x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x1x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_cst : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S200000 : S_.BroadcastsInDim S200000 (![] : Fin 0 → Fin S200000.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S200000_S200000x1 : S200000.ShapeCasts S200000x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  broadcasts_S2000x1_S2000x256 : S2000x1.Broadcasts S2000x256
  reduces_S2000x256_S256 : S2000x256.Reduces [0] S256
  shapeCasts_S256_S1x256 : S256.ShapeCasts S1x256
  reducesTo_S2x1x256_S1x256_d0 : S2x1x256.ReducesTo [0] S1x256
  h_S_ : 0 < S_.numel
  transposes_S256x256_S256x256_1_0 : S256x256.Transposes [1, 0] S256x256
  bcast_S256_S1x256_1 : S256.BroadcastsInDim S1x256 (![1] : Fin 1 → Fin S1x256.rank)
  bcast_S_S1x256 : S_.BroadcastsInDim S1x256 (![] : Fin 0 → Fin S1x256.rank)
  bcast_S1x256_S1x1x256_1_2 : S1x256.BroadcastsInDim S1x1x256 (![1, 2] : Fin 2 → Fin S1x1x256.rank)
  scatter_S200000_S100000x1_S100000_n_0_0_1_wf : ScatterDims.WF S200000 S100000x1 S100000 [] [0] [0] 1
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)

variable [Facts₀]

def scatter_S200000_S100000x1_S100000_n_0_0_1 : ScatterDims S200000 S100000x1 S100000 where
  updateWindowDims := []
  insertedWindowDims := [0]
  scatterDimsToOperandDims := [0]
  indexVectorDim := 1
  wf := scatter_S200000_S100000x1_S100000_n_0_0_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000 : Shape := ⟨1, ![100000]⟩
abbrev S200000x256 : Shape := ⟨2, ![200000, 256]⟩
abbrev S256x256 : Shape := ⟨2, ![256, 256]⟩
abbrev S256 : Shape := ⟨1, ![256]⟩
abbrev S_ : Shape := ⟨0, ![]⟩
abbrev S100000x1 : Shape := ⟨2, ![100000, 1]⟩
abbrev S100000x256 : Shape := ⟨2, ![100000, 256]⟩
abbrev S1x256 : Shape := ⟨2, ![1, 256]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S100000, .i32⟩
  | .hbm, ⟨1, _⟩ => ⟨S200000x256, .f32⟩
  | .hbm, ⟨2, _⟩ => ⟨S200000x256, .f32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S100000x256, .f32⟩
  | .hbm, ⟨14, _⟩ => ⟨S256x256, .f32⟩
  | .hbm, ⟨15, _⟩ => ⟨S100000x256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x256, .f32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x1x256, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S256x256_S256x256_1_0 : S256x256.Transposes [1, 0] S256x256
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S1x1x256_1_2 : S1x256.BroadcastsInDim S1x1x256 (![1, 2] : Fin 2 → Fin S1x1x256.rank)
  gather_S200000x256_S100000x1_S100000x256_1_0_n_n_0_1_1256_wf : GatherDims.WF S200000x256 S100000x1 S100000x256 [1] [0] [] [0] [] 1 ![1, 256]
  dot_S100000x256_S256x256_S100000x256_1_0_0_1_n_n_wf : DotDims.WF S100000x256 S256x256 S100000x256 [1] [0] [0] [1] [] []

variable [Facts₀]

def gather_S200000x256_S100000x1_S100000x256_1_0_n_n_0_1_1256 : GatherDims S200000x256 S100000x1 S100000x256 where
  offsetDims := [1]
  collapsedSliceDims := [0]
  operandBatchingDims := []
  startIndicesBatchingDims := []
  startIndexMap := [0]
  indexVectorDim := 1
  sliceSizes := ![1, 256]
  wf := gather_S200000x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Spec.lean ====
/-
  The mathematics the two programs share, over literal shapes.

  A list of 100000 row numbers `x0`, each in [0, 200000), selects rows of two tables `emb`, `pre` : [200000, 256].
  One program sums the selected rows one by one (a gather, then a sum over the 100000 positions).  The other first
  counts how often each row number occurs (`cnt v`), then walks both tables once in 100 blocks of 2000 rows, adds
  `cnt v • row v` block by block into two half sums (blocks 0..49 and 50..99), and adds the halves.  Both then form
  `Σ pre-rows + (Σ emb-rows) · Wᵀ + 100000 · bias`, the first program as `100000 · (S / 100000 + bias)`.
-/
import Idealize.ShloMosaic.PureOps.Ideal
import Idealize.ShloMosaic.Lib.ValueIdx

noncomputable section

open scoped BigOperators

namespace Cert.Spec

open Idealize.ShloMosaic Idealize.ShloMosaic.ValueIdx

abbrev Ids : Shape := ⟨1, ![100000]⟩
abbrev Tab : Shape := ⟨2, ![200000, 256]⟩
abbrev Col : Shape := ⟨2, ![200000, 1]⟩
abbrev Mat : Shape := ⟨2, ![256, 256]⟩
abbrev Row : Shape := ⟨1, ![256]⟩
abbrev Half : Shape := ⟨3, ![2, 1, 256]⟩
abbrev Out : Shape := ⟨3, ![1, 1, 256]⟩

/-- Every row number is a valid row of the tables (as a signed word: non-negative and below 200000). -/
def InRange (x0 : IVec Ids 32) : Prop := ∀ k : Fin 100000, (x0 (ix1 k)).toNat < 200000

/-- The row position `k` selects. -/
def row (x0 : IVec Ids 32) (hx : InRange x0) (k : Fin 100000) : Fin 200000 := ⟨(x0 (ix1 k)).toNat, hx k⟩

/-- How many positions select row `v`. -/
def count (x0 : IVec Ids 32) (v : ℕ) : ℕ := (Finset.univ.filter fun k : Fin 100000 => (x0 (ix1 k)).toNat = v).card

/-- A table entry by natural-number coordinates (zero outside the table). -/
def tabN (x : Tab.Idx → EReal) (v c : ℕ) : EReal :=
  if h : v < 200000 ∧ c < 256 then x (ix2 ⟨v, h.1⟩ ⟨c, h.2⟩) else 0

/-- A column entry by its natural-number row (zero outside the column). -/
def colN (x : Col.Idx → EReal) (v : ℕ) : EReal :=
  if h : v < 200000 then x (ix2 ⟨v, h⟩ (0 : Fin 1)) else 0

/-- Block `t` (rows 2000 t … 2000 t + 1999) of a table, each row scaled by its weight, summed down column `c`. -/
def blockSum (tab : Tab.Idx → EReal) (cnt : Col.Idx → EReal) (t c : ℕ) : EReal :=
  ∑ r ∈ Finset.range 2000, tabN tab (t * 2000 + r) c * colN cnt (t * 2000 + r)

/-- The two half sums: half `o` adds blocks 50 o … 50 o + 49. -/
def halves (tab : Tab.Idx → EReal) (cnt : Col.Idx → EReal) : Half.Idx → EReal :=
  fun i => ∑ t ∈ Finset.Ico ((i 0).val * 50) ((i 0).val * 50 + 50), blockSum tab cnt t (i 2).val

/-- The float zero and the float 100000 as the programs spell them. -/
abbrev fzero : EReal := Ideal.ofBits .f32 0x00000000#32
abbrev fN : EReal := Ideal.ofBits .f32 0x47C35000#32

/-- What the counting program ends with at column `j`, from the half sums of the two tables. -/
def kernelForm (hE hP : Half.Idx → EReal) (W : Mat.Idx → EReal) (b : Row.Idx → EReal) (j : Fin 256) : EReal :=
  ((fzero + ∑ o : Fin 2, hP (ix3 o (0 : Fin 1) j))
    + ∑ q : Fin 256, (fzero + ∑ o : Fin 2, hE (ix3 o (0 : Fin 1) q)) * W (ix2 j q))
  + fN * b (ix1 j)

/-- What the row-by-row program ends with at column `j`. -/
def refForm (x0 : IVec Ids 32) (hx : InRange x0) (emb pre : Tab.Idx → EReal) (W : Mat.Idx → EReal) (b : Row.Idx → EReal)
    (j : Fin 256) : EReal :=
  (fzero + ∑ k : Fin 100000, pre (ix2 (row x0 hx k) j))
  + fN * (Ideal.div (fzero + ∑ k : Fin 100000, ∑ q : Fin 256, emb (ix2 (row x0 hx k) q) * W (ix2 j q)) fN + b (ix1 j))

/-- An extended real that is a real number. -/
def Fin' (x : EReal) : Prop := x ≠ ⊤ ∧ x ≠ ⊥

end Cert.Spec

end
-- ==== Proof.Algebra.lean ====
/-
  The law that joins the two programs, over the reals.

  Weighting row `v` by the number of positions that select it and summing over all rows is summing the selected rows
  position by position (sum over the fibres of the selection).  The 100 blocks of 2000 rows tile the 200000 rows.  With
  every entry a real number, `n · (S / n + b) = S + n · b`, and a sum of products with a fixed factor is the product
  of the sum.
-/
import proofs.«431507_j40218073760223_2_alg».proof.Proof.Spec

noncomputable section

open scoped BigOperators

namespace Cert.Spec

open Idealize.ShloMosaic Idealize.ShloMosaic.ValueIdx

/-! ### The two float literals -/

/-- The float zero denotes the real zero. -/
theorem fzero_eq : fzero = 0 := by
  simp [Ideal.ofBits, Ideal.ieee]

/-- The pattern 0x47C35000 (exponent 143, significand 2^23 + 4345856) denotes 100000. -/
theorem fN_eq : fN = ((100000 : ℝ) : EReal) := by
  simp [Ideal.ofBits, Ideal.ieee, -EReal.coe_mul]; norm_num

/-! ### Reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of extended reals none of which is infinite is an array of reals. -/
theorem exists_real {ι : Type*} (f : ι → EReal) (hf : ∀ i, Fin' (f i)) : ∃ g : ι → ℝ, f = fun i => (g i : EReal) :=
  ⟨fun i => (f i).toReal, funext fun i => (EReal.coe_toReal (hf i).1 (hf i).2).symm⟩

/-! ### Blocks tile the range -/

/-- Summing block by block, n blocks of m consecutive terms, is summing the first n m terms. -/
theorem sum_blocks {M : Type*} [AddCommMonoid M] (m : ℕ) (f : ℕ → M) (n : ℕ) :
    ∑ t ∈ Finset.range n, ∑ r ∈ Finset.range m, f (t * m + r) = ∑ v ∈ Finset.range (n * m), f v := by
  induction n with
  | zero => simp
  | succ n ih => rw [Finset.sum_range_succ, ih, Nat.succ_mul, Finset.sum_range_add]

/-! ### The histogram law -/

/-- Weighting each value by the size of its fibre and summing over the values is summing over the domain. -/
theorem sum_mul_card_fibre {ι κ : Type*} [Fintype ι] [Fintype κ] [DecidableEq κ] (g : ι → κ) (f : κ → ℝ) :
    ∑ v, f v * ((Finset.univ.filter fun k => g k = v).card : ℝ) = ∑ k, f (g k) := by
  rw [← Finset.sum_fiberwise Finset.univ g (fun k => f (g k))]
  refine Finset.sum_congr rfl fun v _ => ?_
  have h : ∀ k ∈ Finset.univ.filter (fun k => g k = v), f (g k) = f v := fun k hk => by
    rw [(Finset.mem_filter.mp hk).2]
  rw [Finset.sum_congr rfl h, Finset.sum_const, nsmul_eq_mul, mul_comm]

/-- The count of a row number is the size of its fibre under the selection. -/
theorem count_eq (x0 : IVec Ids 32) (hx : InRange x0) (v : Fin 200000) :
    count x0 v.val = (Finset.univ.filter fun k => row x0 hx k = v).card := by
  refine congrArg Finset.card (Finset.filter_congr fun k _ => ?_)
  exact ⟨fun h => Fin.ext h, fun h => congrArg Fin.val h⟩

/-! ### The two half sums together -/

/-- The two halves add up to the sum over all 200000 rows. -/
theorem halves_sum (tab : Tab.Idx → EReal) (cnt : Col.Idx → EReal) (c : Fin 256) :
    ∑ o : Fin 2, halves tab cnt (ix3 o (0 : Fin 1) c) = ∑ v ∈ Finset.range 200000, tabN tab v c.val * colN cnt v := by
  have h1 : halves tab cnt (ix3 (0 : Fin 2) (0 : Fin 1) c) = ∑ t ∈ Finset.Ico 0 50, blockSum tab cnt t c.val := rfl
  have h2 : halves tab cnt (ix3 (1 : Fin 2) (0 : Fin 1) c) = ∑ t ∈ Finset.Ico 50 100, blockSum tab cnt t c.val := rfl
  rw [Fin.sum_univ_two, h1, h2, Finset.sum_Ico_consecutive _ (by norm_num) (by norm_num), ← Finset.range_eq_Ico]
  exact sum_blocks 2000 (fun v => tabN tab v c.val * colN cnt v) 100

/-- With real entries and the counts as weights, the two halves add up to the sum of the selected rows. -/
theorem halves_real (x0 : IVec Ids 32) (hx : InRange x0) (e : Tab.Idx → ℝ) (cnt : Col.Idx → EReal)
    (hcnt : ∀ v : Fin 200000, cnt (ix2 v (0 : Fin 1)) = ((count x0 v.val : ℝ) : EReal)) (c : Fin 256) :
    ∑ o : Fin 2, halves (fun i => (e i : EReal)) cnt (ix3 o (0 : Fin 1) c)
      = ((∑ k : Fin 100000, e (ix2 (row x0 hx k) c) : ℝ) : EReal) := by
  have H := sum_mul_card_fibre (row x0 hx) (fun v => e (ix2 v c))
  beta_reduce at H
  rw [halves_sum, Finset.sum_range, ← H, coe_sum]
  refine Finset.sum_congr rfl fun v _ => ?_
  rw [tabN, colN, dif_pos ⟨v.2, c.2⟩, dif_pos v.2]
  simp only [Fin.eta]
  rw [hcnt v, count_eq x0 hx v, EReal.coe_mul]

/-! ### The law over the reals -/

theorem kernel_eq_ref_real (x0 : IVec Ids 32) (hx : InRange x0) (e p : Tab.Idx → ℝ) (w : Mat.Idx → ℝ) (β : Row.Idx → ℝ)
    (cnt : Col.Idx → EReal) (hcnt : ∀ v : Fin 200000, cnt (ix2 v (0 : Fin 1)) = ((count x0 v.val : ℝ) : EReal))
    (j : Fin 256) :
    kernelForm (halves (fun i => (e i : EReal)) cnt) (halves (fun i => (p i : EReal)) cnt) (fun i => (w i : EReal))
        (fun i => (β i : EReal)) j
      = refForm x0 hx (fun i => (e i : EReal)) (fun i => (p i : EReal)) (fun i => (w i : EReal)) (fun i => (β i : EReal)) j := by
  unfold kernelForm refForm
  simp only [halves_real x0 hx e cnt hcnt, halves_real x0 hx p cnt hcnt, fzero_eq, fN_eq, zero_add]
  rw [Ideal.div_coe (by norm_num)]
  simp only [← EReal.coe_mul, ← coe_sum, ← EReal.coe_add]
  rw [EReal.coe_eq_coe_iff]
  have hS : ∑ q : Fin 256, (∑ k : Fin 100000, e (ix2 (row x0 hx k) q)) * w (ix2 j q)
      = ∑ k : Fin 100000, ∑ q : Fin 256, e (ix2 (row x0 hx k) q) * w (ix2 j q) := by
    rw [Finset.sum_comm]; exact Finset.sum_congr rfl fun q _ => Finset.sum_mul _ _ _
  rw [hS]; ring

theorem kernel_eq_ref (x0 : IVec Ids 32) (hx : InRange x0) (emb pre : Tab.Idx → EReal) (W : Mat.Idx → EReal)
    (b : Row.Idx → EReal) (he : ∀ i, Fin' (emb i)) (hp : ∀ i, Fin' (pre i)) (hW : ∀ i, Fin' (W i)) (hb : ∀ i, Fin' (b i))
    (cnt : Col.Idx → EReal) (hcnt : ∀ v : Fin 200000, cnt (ix2 v (0 : Fin 1)) = ((count x0 v.val : ℝ) : EReal))
    (j : Fin 256) :
    kernelForm (halves emb cnt) (halves pre cnt) W b j = refForm x0 hx emb pre W b j := by
  obtain ⟨e, rfl⟩ := exists_real emb he
  obtain ⟨p, rfl⟩ := exists_real pre hp
  obtain ⟨w, rfl⟩ := exists_real W hW
  obtain ⟨β, rfl⟩ := exists_real b hb
  exact kernel_eq_ref_real x0 hx e p w β cnt hcnt j

end Cert.Spec

end
-- ==== Proof.PreFacts.lean ====
/-
  What the precondition says, entry by entry.

  The printed predicate is a conjunction of six `all`-reductions: `|x| < +∞` over each of the four float arrays, and
  `0 ≤ x0`, `x0 < 200000` (signed) over the row numbers.  All ones means every float entry is a real number and every
  row number, as an unsigned word, is below 200000.
-/
import proofs.«431507_j40218073760223_2_alg».proof.Pre_finite_inputs
import proofs.«431507_j40218073760223_2_alg».proof.Proof.Gen.Pre_finite_inputs
import proofs.«431507_j40218073760223_2_alg».proof.Proof.Spec
import Idealize.ShloMosaic.Lib.ReduceAll
import Idealize.ShloMosaic.Lib.StableHlo.Predicate

noncomputable section

open scoped BigOperators

namespace Cert.PreFacts

open Idealize.ShloMosaic Idealize.ShloMosaic.ValueIdx Cert.Spec

local instance : Subsingleton Cert.Pre_finite_inputs.S_.Idx := ⟨fun a b => funext fun d => d.elim0⟩

/-- An extended real whose absolute value is below +∞ is a real number. -/
theorem fin_of_abs_lt (x : EReal) (h : Ideal.cmp .olt (max x (-x)) (Ideal.ofBits .f32 0x7F800000#32) = 1#1) : Fin' x := by
  have e : Ideal.ofBits .f32 0x7F800000#32 = ⊤ := by simp [Ideal.ofBits, Ideal.ieee]
  rw [e] at h
  have h' : max x (-x) < ⊤ := of_decide_eq_true ((StableHlo.Predicate.ofBool_eq_one_iff _).1 h)
  constructor
  · rintro rfl; simp at h'
  · rintro rfl; simp at h'

/-- A 32-bit word that is non-negative and below 200000 as a signed number is below 200000 as an unsigned one. -/
theorem toNat_lt_of_signed (a : BitVec 32) (h0 : IntOp.cmpi .sge a 0#32 = 1#1) (h1 : IntOp.cmpi .slt a 200000#32 = 1#1) :
    a.toNat < 200000 := by
  rw [IntOp.cmpi_sge] at h0
  rw [IntOp.cmpi_slt] at h1
  have z : (0#32 : BitVec 32).toInt = 0 := by decide
  have t : (200000#32 : BitVec 32).toInt = 200000 := by decide
  rw [z] at h0
  rw [t] at h1
  have hl := a.isLt
  rw [BitVec.toInt_eq_toNat_cond] at h0 h1
  split at h0 <;> omega

theorem of_pre (x0 : IVec Ids 32) (x1 x2 : Tab.Idx → EReal) (x3 : Mat.Idx → EReal) (x4 : Row.Idx → EReal)
    (h : Cert.Pre_finite_inputs.fn (F := Ideal) x0 x1 x2 x3 x4 = fun _ => 1#1) :
    (∀ i, Fin' (x1 i)) ∧ (∀ i, Fin' (x2 i)) ∧ (∀ i, Fin' (x3 i)) ∧ (∀ i, Fin' (x4 i)) ∧ InRange x0 := by
  have h0 := congrFun h ValueIdx.ix0
  dsimp only [Cert.Pre_finite_inputs.fn, Cert.Pre_finite_inputs.fn_part1] at h0
  obtain ⟨h5, hlt⟩ := IntOp.andi_eq_one.1 h0
  obtain ⟨h4, hge⟩ := IntOp.andi_eq_one.1 h5
  obtain ⟨h3, hx4⟩ := IntOp.andi_eq_one.1 h4
  obtain ⟨h2, hx3⟩ := IntOp.andi_eq_one.1 h3
  obtain ⟨hx1, hx2⟩ := IntOp.andi_eq_one.1 h2
  refine ⟨fun i => ?_, fun i => ?_, fun i => ?_, fun i => ?_, fun k => ?_⟩
  · exact fin_of_abs_lt _ (Host.reduce_andi_all _ _ _ _ _ hx1 i)
  · exact fin_of_abs_lt _ (Host.reduce_andi_all _ _ _ _ _ hx2 i)
  · exact fin_of_abs_lt _ (Host.reduce_andi_all _ _ _ _ _ hx3 i)
  · exact fin_of_abs_lt _ (Host.reduce_andi_all _ _ _ _ _ hx4 i)
  · exact toNat_lt_of_signed _ (Host.reduce_andi_all _ _ _ _ _ hge (ix1 k)) (Host.reduce_andi_all _ _ _ _ _ hlt (ix1 k))

end Cert.PreFacts

end
-- ==== Proof.LibGatherRows.lean ====
/-
  Taking rows of a table.

  `table[idx]` over a rank-2 table [N, C] at an [n, 1] column of row numbers: result entry (k, q) is the table's
  entry (idx[k], q), the row number read signed and clamped into [0, N − 1].
-/
import Idealize.ShloMosaic.PureOps
import Idealize.ShloMosaic.Lib.ValueIdx

noncomputable section

namespace Cert.Lib

open Idealize.ShloMosaic Idealize.ShloMosaic.ValueIdx

/-- The row gather read at (k, q). The hypotheses on the dimension numbers are the printed record's fields, each by `rfl`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (k : Fin n) (q : Fin C) (hN : 0 < N) :
    Host.gather d x idx (ix2 k q)
      = x (ix2 (⟨min (idx (ix2 k (0 : Fin 1))).toInt.toNat (N - 1), by omega⟩ : Fin N) q) := by
  unfold Host.gather
  congr 1
  -- no operand axis is a batching axis
  have hb : ∀ a : Fin 2, a ∉ d.operandBatchingDims := fun a => by rw [hob]; exact List.not_mem_nil
  -- the result's only batch axis is axis 0, its only offset axis is axis 1
  have hbd : ∀ b ∈ d.batchDims, b = (0 : Fin 2) := by
    show ∀ b ∈ Shape.kept _ d.offsetDims, b = (0 : Fin 2)
    rw [hoff]
    intro b hbm
    have h1 : b ∉ ([1] : List (Fin 2)) := by simpa using (List.mem_filter.1 hbm).2
    match b, h1 with
    | ⟨0, _⟩, _ => rfl
    | ⟨1, _⟩, h1 => exact absurd (List.mem_singleton.mpr rfl) h1
  have hod : ∀ b ∈ d.offsetDims, b = (1 : Fin 2) := by rw [hoff]; simp
  have e0 : ∀ X : Fin 2, X = 0 → ((ix2 k q : (⟨2, ![n, C]⟩ : Shape).Idx) X).val = k.val := by
    rintro X rfl; rfl
  have e1 : ∀ X : Fin 2, X = 1 → ((ix2 k q : (⟨2, ![n, C]⟩ : Shape).Idx) X).val = q.val := by
    rintro X rfl; rfl
  have hl : d.startIndexMap.length = 1 := by rw [hsim]; rfl
  -- the start index of result entry (k, q) sits at (k, 0) of the column of row numbers
  have hsi : ∀ c : Fin d.startIndexMap.length, d.siIdx (ix2 k q) c = ix2 k (0 : Fin 1) := by
    intro c
    funext b
    match b with
    | ⟨0, _⟩ =>
      unfold GatherDims.siIdx
      rw [dif_neg (by rw [hivd]; simp)]
      unfold GatherDims.siCoord
      apply Fin.ext
      simp only [Fin.val_cast]
      exact e0 _ (hbd _ (List.getElem_mem _))
    | ⟨1, _⟩ =>
      unfold GatherDims.siIdx
      rw [dif_pos (by rw [hivd])]
      apply Fin.ext
      have := c.isLt
      show c.val = 0
      omega
  funext a
  match a with
  | ⟨0, _⟩ =>
    -- the row axis: collapsed and start-indexed, so the clamped row number alone
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 k q) idx 0 + d.batchCoord (ix2 k q) 0 + d.offCoord (ix2 k q) 0 = min _ (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    -- the column axis: kept, not start-indexed, so the result's own column
    apply Fin.ext
    have hk : (1 : Fin 2) ∈ d.sKept := by rw [GatherDims.mem_sKept, hcoll]; exact ⟨by simp, hb 1⟩
    have hm : (1 : Fin 2) ∉ d.startIndexMap := by rw [hsim]; simp
    show d.start (ix2 k q) idx 1 + d.batchCoord (ix2 k q) 1 + d.offCoord (ix2 k q) 1 = q.val
    rw [GatherDims.batchCoord_eq_zero _ _ _ (hb 1)]
    unfold GatherDims.start GatherDims.offCoord
    rw [dif_neg hm, dif_pos hk]
    simp only [Nat.add_zero, Nat.zero_add]
    exact e1 _ (hod _ (List.getElem_mem _))

end Cert.Lib

end
-- ==== Proof.RefValue.lean ====
/-
  The row-by-row program's result at column j.

  With every row number in range the negative-index wrap selects the number itself and the gather's clamp does nothing,
  so the gathered arrays hold the selected rows; the rest is the stages read at an index: two sums over the 100000
  positions, the product with the transposed matrix as a sum over 256, the division and the two additions.
-/
import proofs.«431507_j40218073760223_2_alg».proof.Proof.Gen.ReferenceIdeal.Read
import proofs.«431507_j40218073760223_2_alg».proof.Proof.Spec
import proofs.«431507_j40218073760223_2_alg».proof.Proof.LibGatherRows
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-- A word whose unsigned value is below 200000 is not negative as a signed word. -/
theorem not_neg_of_lt (a : BitVec 32) (h : a.toNat < 200000) : IntOp.cmpi .slt a 0#32 = 0#1 := by
  apply eq_zero_of_ne_one
  intro h1
  have h2 := (StableHlo.Predicate.slt_iff_toNat (a := a) (b := 0#32) (by omega) (by decide)).1 h1
  simp at h2

/-- Read signed and clamped into the table, a row number in range is itself. -/
theorem clamp_of_lt (a : BitVec 32) (h : a.toNat < 200000) : min a.toInt.toNat (200000 - 1) = a.toNat := by
  rw [StableHlo.Predicate.toInt_eq_toNat_of_lt (by omega), Int.toNat_natCast]
  omega

/-- With a row number in range the negative-index wrap leaves it alone (first table's index chain). -/
theorem wrap4 (x0 : IVec Ids 32) (hx : InRange x0) (k : Fin 100000) :
    val_main_v4 (F := Ideal) x0 (ix1 k) = x0 (ix1 k) := by
  rw [val_main_v4_apply, val_main_v1_apply, val_main_v0_apply, val_main_c_apply, not_neg_of_lt _ (hx k), select_zero]

/-- The same for the second table's index chain. -/
theorem wrap19 (x0 : IVec Ids 32) (hx : InRange x0) (k : Fin 100000) :
    val_main_v19 (F := Ideal) x0 (ix1 k) = x0 (ix1 k) := by
  rw [val_main_v19_apply, val_main_v16_apply, val_main_v15_apply, val_main_c_2_apply, not_neg_of_lt _ (hx k), select_zero]

/-- The column of row numbers the first gather reads, at (k, 0). -/
theorem col5 (x0 : IVec Ids 32) (hx : InRange x0) (k : Fin 100000) :
    val_main_v5 (F := Ideal) x0 (ix2 k (0 : Fin 1)) = x0 (ix1 k) := by
  have e : idx_main_v5 (ix2 k (0 : Fin 1)) = ix1 k := funext fun a => Fin.ext (by match a with | ⟨0, _⟩ => rfl)
  rw [val_main_v5_apply, e, wrap4 x0 hx k]

/-- The column of row numbers the second gather reads, at (k, 0). -/
theorem col20 (x0 : IVec Ids 32) (hx : InRange x0) (k : Fin 100000) :
    val_main_v20 (F := Ideal) x0 (ix2 k (0 : Fin 1)) = x0 (ix1 k) := by
  have e : idx_main_v20 (ix2 k (0 : Fin 1)) = ix1 k := funext fun a => Fin.ext (by match a with | ⟨0, _⟩ => rfl)
  rw [val_main_v20_apply, e, wrap19 x0 hx k]

/-- The first gathered array holds the selected rows of the first table. -/
theorem v6_apply (x0 : IVec Ids 32) (hx : InRange x0) (x1 : Tab.Idx → EReal) (k : Fin 100000) (q : Fin 256) :
    val_main_v6 (F := Ideal) x0 x1 (ix2 k q) = x1 (ix2 (row x0 hx k) q) := by
  unfold val_main_v6
  rw [Cert.Lib.gather_rows _ rfl rfl rfl rfl rfl x1 _ k q (by decide)]
  refine congrArg x1 (congrArg (fun r : Fin 200000 => ix2 r q) (Fin.ext ?_))
  show min _ (200000 - 1) = (x0 (ix1 k)).toNat
  rw [col5 x0 hx k, clamp_of_lt _ (hx k)]

/-- The second gathered array holds the selected rows of the second table. -/
theorem v21_apply (x0 : IVec Ids 32) (hx : InRange x0) (x2 : Tab.Idx → EReal) (k : Fin 100000) (q : Fin 256) :
    val_main_v21 (F := Ideal) x0 x2 (ix2 k q) = x2 (ix2 (row x0 hx k) q) := by
  unfold val_main_v21
  rw [Cert.Lib.gather_rows _ rfl rfl rfl rfl rfl x2 _ k q (by decide)]
  refine congrArg x2 (congrArg (fun r : Fin 200000 => ix2 r q) (Fin.ext ?_))
  show min _ (200000 - 1) = (x0 (ix1 k)).toNat
  rw [col20 x0 hx k, clamp_of_lt _ (hx k)]

theorem ref_apply (x0 : IVec Ids 32) (hx : InRange x0) (x1 x2 : Tab.Idx → EReal) (x3 : Mat.Idx → EReal) (x4 : Row.Idx → EReal)
    (j : Fin 256) :
    val_main_v27 (F := Ideal) x0 x1 x2 x3 x4 (ix3 (0 : Fin 1) (0 : Fin 1) j) = refForm x0 hx x1 x2 x3 x4 j := by
  have i27 : idx_main_v27 (ix3 (0 : Fin 1) (0 : Fin 1) j) = ix2 (0 : Fin 1) j :=
    funext fun a => Fin.ext (by match a with | ⟨0, _⟩ => rfl | ⟨1, _⟩ => rfl)
  have i23 : idx_main_v23 (ix2 (0 : Fin 1) j) = ix1 j := funext fun a => Fin.ext (by match a with | ⟨0, _⟩ => rfl)
  have i12 : idx_main_v12 (ix2 (0 : Fin 1) j) = ix1 j := funext fun a => Fin.ext (by match a with | ⟨0, _⟩ => rfl)
  have i13 : idx_main_v13 (ix2 (0 : Fin 1) j) = ix1 j := funext fun a => Fin.ext (by match a with | ⟨0, _⟩ => rfl)
  have i22 : ∀ k : Fin 100000, idx_main_v22 (ix1 j) k = ix2 k j := fun k =>
    funext fun a => Fin.ext (by match a with | ⟨0, _⟩ => rfl | ⟨1, _⟩ => rfl)
  have i9 : ∀ k : Fin 100000, idx_main_v9 (ix1 j) k = ix2 k j := fun k =>
    funext fun a => Fin.ext (by match a with | ⟨0, _⟩ => rfl | ⟨1, _⟩ => rfl)
  have il8 : ∀ (k : Fin 100000) (q : Fin 256), lidx_main_v8 (ix2 k j) q = ix2 k q := fun k q =>
    funext fun a => Fin.ext (by match a with | ⟨0, _⟩ => rfl | ⟨1, _⟩ => rfl)
  have ir8 : ∀ (k : Fin 100000) (q : Fin 256), ridx_main_v8 (ix2 k j) q = ix2 q j := fun k q =>
    funext fun a => Fin.ext (by match a with | ⟨0, _⟩ => rfl | ⟨1, _⟩ => rfl)
  have i7 : ∀ q : Fin 256, idx_main_v7 (ix2 q j) = ix2 j q := fun q =>
    funext fun a => Fin.ext (by match a with | ⟨0, _⟩ => rfl | ⟨1, _⟩ => rfl)
  rw [val_main_v27_apply, i27, val_main_v26_apply, val_main_v23_apply, i23, val_main_v22_apply, val_main_v25_apply,
    val_main_v24_apply, val_main_cst_5_apply, val_main_v14_apply, val_main_v12_apply, i12, val_main_v11_apply,
    val_main_v9_apply, val_main_v10_apply, val_main_cst_1_apply, val_main_v13_apply, i13, val_main_cst_apply,
    val_main_cst_4_apply]
  simp only [i22, i9, v21_apply x0 hx, val_main_v8_apply, il8, ir8, v6_apply x0 hx, val_main_v7_apply, i7]
  simp only [Ideal.addf_def, Ideal.mulf_def, Ideal.hostDivf_def, Ideal.ofBits_def]
  unfold refForm
  rfl

end Cert.ReferenceIdeal.RefValue

end
-- ==== Proof.KRegion.lean ====
/-
  What the streaming region leaves in its two result arrays.

  Grid point t = 50 o + i stages block t (rows 2000 t … 2000 t + 1999) of each table and of the weights.  At i = 0 the
  body zeroes both accumulators, then at every point adds the block's weighted column sums.  So after point t the
  accumulators hold the sum of the block sums from 50 o up to t, and half o of each result array, written back after
  point 50 o + 49, is the sum over its fifty blocks.
-/
import proofs.«431507_j40218073760223_2_alg».proof.Proof.Gen.KernelIdeal.Frame
import proofs.«431507_j40218073760223_2_alg».proof.Proof.Spec
import Idealize.ShloMosaic.Lib.Pipeline.Value
import Idealize.ShloMosaic.Lib.ValueLayout
import Idealize.ShloMosaic.PureOps.Ideal.Laws
import Idealize.ShloMosaic.Lib.Tactic

set_option maxRecDepth 16384
noncomputable section

open scoped BigOperators

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that is not the first of its half, the body leaves in accumulator 0 the update of what it held. -/
theorem out_B_3 (c : Dev nD) (i : grid0.Coords) (a2 : Memref sig .tc .vmem S2000x256 .f32) (h2 : a2.IsWhole) (a3 : Memref sig .tc .vmem S2000x256 .f32) (h3 : a3.IsWhole) (a4 : Memref sig .tc .vmem S2000x1 .f32) (h4 : a4.IsWhole) (a5 : Memref sig .tc .vmem S1x1x256 .f32) (h5 : a5.IsWhole) (a6 : Memref sig .tc .vmem S1x1x256 .f32) (h6 : a6.IsWhole) (hc : ¬cond0_0 i)
    (x0 x1 : Vec F S2000x256 .f32) (x2 : Vec F S2000x1 .f32) (xo3 xo4 : Vec F S1x1x256 .f32) :
    out0_B_3 c i a2 h2 a3 h3 a4 h4 a5 h5 a6 h6 hc x0 x1 x2 xo3 xo4 = k0_pay4 x2 xo3 x0 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h4.read_unread, h5.read_unread, View.ld_unit_zero (S := S2000x256) hz2,
    View.ld_unit_zero (S := S2000x1) hz2, View.ld_unit_zero (S := S1x1x256) hz3]

/-- The same for accumulator 1, over the second table's block. -/
theorem out_B_4 (c : Dev nD) (i : grid0.Coords) (a2 : Memref sig .tc .vmem S2000x256 .f32) (h2 : a2.IsWhole) (a3 : Memref sig .tc .vmem S2000x256 .f32) (h3 : a3.IsWhole) (a4 : Memref sig .tc .vmem S2000x1 .f32) (h4 : a4.IsWhole) (a5 : Memref sig .tc .vmem S1x1x256 .f32) (h5 : a5.IsWhole) (a6 : Memref sig .tc .vmem S1x1x256 .f32) (h6 : a6.IsWhole) (hc : ¬cond0_0 i)
    (x0 x1 : Vec F S2000x256 .f32) (x2 : Vec F S2000x1 .f32) (xo3 xo4 : Vec F S1x1x256 .f32) :
    out0_B_4 c i a2 h2 a3 h3 a4 h4 a5 h5 a6 h6 hc x0 x1 x2 xo3 xo4 = k0_pay5 x2 xo4 x1 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h3.read_unread, h4.read_unread, h6.read_unread, View.ld_unit_zero (S := S2000x256) hz2,
    View.ld_unit_zero (S := S2000x1) hz2, View.ld_unit_zero (S := S1x1x256) hz3]

/-- At the first point of a half the body stores zeros, reads them back, and leaves the update of the zeros. -/
theorem out_A_3 (c : Dev nD) (i : grid0.Coords) (a2 : Memref sig .tc .vmem S2000x256 .f32) (h2 : a2.IsWhole) (a3 : Memref sig .tc .vmem S2000x256 .f32) (h3 : a3.IsWhole) (a4 : Memref sig .tc .vmem S2000x1 .f32) (h4 : a4.IsWhole) (a5 : Memref sig .tc .vmem S1x1x256 .f32) (h5 : a5.IsWhole) (a6 : Memref sig .tc .vmem S1x1x256 .f32) (h6 : a6.IsWhole) (hc : cond0_0 i)
    (x0 x1 : Vec F S2000x256 .f32) (x2 : Vec F S2000x1 .f32) :
    out0_A_3 c i a2 h2 a3 h3 a4 h4 a5 h5 a6 h6 hc x0 x1 x2 = k0_pay4 x2 k0_pay1 x0 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1x256) hz3]
  simp only [View.readAt_eq_ld, h2.read_unread, h4.read_unread, View.ld_unit_zero (S := S2000x256) hz2,
    View.ld_unit_zero (S := S2000x1) hz2, View.readCov_unit_zero (S := S1x1x256) _ hz3]

/-- The same for accumulator 1. -/
theorem out_A_4 (c : Dev nD) (i : grid0.Coords) (a2 : Memref sig .tc .vmem S2000x256 .f32) (h2 : a2.IsWhole) (a3 : Memref sig .tc .vmem S2000x256 .f32) (h3 : a3.IsWhole) (a4 : Memref sig .tc .vmem S2000x1 .f32) (h4 : a4.IsWhole) (a5 : Memref sig .tc .vmem S1x1x256 .f32) (h5 : a5.IsWhole) (a6 : Memref sig .tc .vmem S1x1x256 .f32) (h6 : a6.IsWhole) (hc : cond0_0 i)
    (x0 x1 : Vec F S2000x256 .f32) (x2 : Vec F S2000x1 .f32) :
    out0_A_4 c i a2 h2 a3 h3 a4 h4 a5 h5 a6 h6 hc x0 x1 x2 = k0_pay5 x2 k0_pay2 x1 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x256) hz3]
  simp only [View.readAt_eq_ld, h3.read_unread, h4.read_unread, View.ld_unit_zero (S := S2000x256) hz2,
    View.ld_unit_zero (S := S2000x1) hz2, View.readCov_unit_zero (S := S1x1x256) _ hz3]

end Pieces

section Payload

/-- Inserting row `r` above column `q` in the block gives the block's entry `(r, q)`. -/
theorem lift_eq (q : Fin 256) (r : Fin 2000) : reduces_S2000x256_S256.lift (ix1 q) r = ix2 r q :=
  funext fun a => Fin.ext (match a with | ⟨0, _⟩ => rfl | ⟨1, _⟩ => rfl)

/-- A column sum of a block: the sum down the rows. -/
theorem colsum_apply (v9 : FVec Ideal S2000x256 .f32) (q : Fin 256) :
    multiReduction .add [0] S256 v9 0x00000000#32 reduces_S2000x256_S256 (.inl rfl) rfl (ix1 q) = ∑ r : Fin 2000, v9 (ix2 r q) :=
  (Ideal.multiReduction_add_single v9 0x00000000#32 reduces_S2000x256_S256 (.inl rfl) rfl (ix1 q)).trans
    (Finset.sum_congr rfl fun r _ => congrArg v9 (lift_eq q r))

/-- The weights column spread across the block's columns reads the row's weight. -/
theorem spread_apply (v3 : Vec Ideal S2000x1 .f32) (r : Fin 2000) (q : Fin 256) :
    broadcastTo S2000x256 (k0_pay3 v3) broadcasts_S2000x1_S2000x256 (ix2 r q) = v3 (ix2 r (0 : Fin 1)) := by
  unfold k0_pay3
  refine (broadcastTo_apply _ broadcasts_S2000x1_S2000x256 (ix2 r q) (ix2 r (0 : Fin 1)) ?_).trans ?_
  · intro a
    match a with
    | ⟨0, _⟩ => rfl
    | ⟨1, _⟩ => rfl
  · exact congrFun (shapeCast_self v3 shapeCasts_S2000x1_S2000x1) _

/-- A [1,1,256] block seen as [1,256]. -/
theorem flat_apply (v5 : Vec Ideal S1x1x256 .f32) (q : Fin 256) :
    shapeCast S1x256 v5 shapeCasts_S1x1x256_S1x256 (ix2 (0 : Fin 1) q) = v5 (ix3 (0 : Fin 1) (0 : Fin 1) q) :=
  shapeCast_apply v5 shapeCasts_S1x1x256_S1x256 (ix2 (0 : Fin 1) q) (ix3 (0 : Fin 1) (0 : Fin 1) q) (by
    rw [Shape.rowMajor_val_two, Shape.rowMajor_val_three]; rfl)

/-- A [256] row seen as [1,256]. -/
theorem row_apply (v10 : FVec Ideal S256 .f32) (q : Fin 256) :
    shapeCast S1x256 v10 shapeCasts_S256_S1x256 (ix2 (0 : Fin 1) q) = v10 (ix1 q) :=
  shapeCast_apply v10 shapeCasts_S256_S1x256 (ix2 (0 : Fin 1) q) (ix1 q) (by
    rw [Shape.rowMajor_val_two, Shape.rowMajor_val_one]; show q.val = 0 * 256 + q.val; omega)

/-- A [1,256] row seen as a [1,1,256] block. -/
theorem unflat_apply (v12 : FVec Ideal S1x256 .f32) (q : Fin 256) :
    shapeCast S1x1x256 v12 shapeCasts_S1x256_S1x1x256 (ix3 (0 : Fin 1) (0 : Fin 1) q) = v12 (ix2 (0 : Fin 1) q) :=
  shapeCast_apply v12 shapeCasts_S1x256_S1x1x256 (ix3 (0 : Fin 1) (0 : Fin 1) q) (ix2 (0 : Fin 1) q) (by
    rw [Shape.rowMajor_val_two, Shape.rowMajor_val_three]; rfl)

/-- The update of accumulator 0 read at column `q`: what was held there plus the block's weighted column sum. -/
theorem pay4_apply (v3 : Vec Ideal S2000x1 .f32) (v5 : Vec Ideal S1x1x256 .f32) (v7 : Vec Ideal S2000x256 .f32) (q : Fin 256) :
    k0_pay4 v3 v5 v7 (ix3 (0 : Fin 1) (0 : Fin 1) q)
      = v5 (ix3 (0 : Fin 1) (0 : Fin 1) q) + ∑ r : Fin 2000, v7 (ix2 r q) * v3 (ix2 r (0 : Fin 1)) := by
  unfold k0_pay4
  refine (unflat_apply _ q).trans ?_
  refine congrArg₂ (· + ·) (flat_apply v5 q) ((row_apply _ q).trans ((colsum_apply _ q).trans
    (Finset.sum_congr rfl fun r _ => ?_)))
  exact congrArg (v7 (ix2 r q) * ·) (spread_apply v3 r q)

/-- The same for accumulator 1. -/
theorem pay5_apply (v3 : Vec Ideal S2000x1 .f32) (v16 : Vec Ideal S1x1x256 .f32) (v18 : Vec Ideal S2000x256 .f32) (q : Fin 256) :
    k0_pay5 v3 v16 v18 (ix3 (0 : Fin 1) (0 : Fin 1) q)
      = v16 (ix3 (0 : Fin 1) (0 : Fin 1) q) + ∑ r : Fin 2000, v18 (ix2 r q) * v3 (ix2 r (0 : Fin 1)) := by
  unfold k0_pay5
  refine (unflat_apply _ q).trans ?_
  refine congrArg₂ (· + ·) (flat_apply v16 q) ((row_apply _ q).trans ((colsum_apply _ q).trans
    (Finset.sum_congr rfl fun r _ => ?_)))
  exact congrArg (v18 (ix2 r q) * ·) (spread_apply v3 r q)

/-- The zero blocks read zero. -/
theorem pay1_apply (q : Fin 256) : k0_pay1 (F := Ideal) (ix3 (0 : Fin 1) (0 : Fin 1) q) = 0 := by
  unfold k0_pay1
  refine (unflat_apply _ q).trans ?_
  exact Ideal.ofBits_zero_f32

theorem pay2_apply (q : Fin 256) : k0_pay2 (F := Ideal) (ix3 (0 : Fin 1) (0 : Fin 1) q) = 0 := by
  unfold k0_pay2
  refine (unflat_apply _ q).trans ?_
  exact Ideal.ofBits_zero_f32

end Payload

variable (m : (ℓ : Loc nD τ sig) → Buf (Elt Ideal) ℓ)

section Blocks

/-- The staged blocks and the arrays, at their literal types. -/
abbrev blk0 (c : Dev nD) (t : Fin cfg0.N) : Vec Ideal S2000x256 .f32 := iblk m c 0 t
abbrev blk1 (c : Dev nD) (t : Fin cfg0.N) : Vec Ideal S2000x256 .f32 := iblk m c 1 t
abbrev blk2 (c : Dev nD) (t : Fin cfg0.N) : Vec Ideal S2000x1 .f32 := iblk m c 2 t
abbrev tab0 (c : Dev nD) : Vec Ideal S200000x256 .f32 := V m c main_arg1
abbrev tab1 (c : Dev nD) : Vec Ideal S200000x256 .f32 := V m c main_arg2
abbrev wts (c : Dev nD) : Vec Ideal S200000x1 .f32 := V m c main_v11

/-- Point `t` stages block `(t, 0)` of each input. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- Entry `(r, q)` of the first table's block at point `t` is the table's entry `(2000 t + r, q)`. -/
theorem blk0_apply (c : Dev nD) (t : Fin cfg0.N) (r : Fin 2000) (q : Fin 256) :
    blk0 m c t (ix2 r q) = Cert.Spec.tabN (tab0 m c) (t.val * 2000 + r.val) q.val := by
  have hN : t.val < 100 := lt_of_lt_of_eq t.isLt (show cfg0.N = 100 from N_0)
  have hv : t.val * 2000 + r.val < 200000 ∧ q.val < 256 := ⟨by have := r.isLt; omega, q.isLt⟩
  unfold Cert.Spec.tabN
  rw [dif_pos hv]
  show ((cfg0.win 0).blk t).view.read (Elt Ideal) (V m c (Pipeline.arrRef spec0 0)) (ix2 r q) = _
  rw [View.read_apply]
  show V m c main_arg1 _ = V m c main_arg1 _
  congr 1
  funext a
  apply Fin.ext
  match a with
  | ⟨0, _⟩ => show win0_0.index t 0 * 2000 + 1 * r.val = t.val * 2000 + r.val; rw [(idx_facts t).1.1]; omega
  | ⟨1, _⟩ => show win0_0.index t 1 * 256 + 1 * q.val = q.val; rw [(idx_facts t).1.2]; omega

/-- The same for the second table. -/
theorem blk1_apply (c : Dev nD) (t : Fin cfg0.N) (r : Fin 2000) (q : Fin 256) :
    blk1 m c t (ix2 r q) = Cert.Spec.tabN (tab1 m c) (t.val * 2000 + r.val) q.val := by
  have hN : t.val < 100 := lt_of_lt_of_eq t.isLt (show cfg0.N = 100 from N_0)
  have hv : t.val * 2000 + r.val < 200000 ∧ q.val < 256 := ⟨by have := r.isLt; omega, q.isLt⟩
  unfold Cert.Spec.tabN
  rw [dif_pos hv]
  show ((cfg0.win 1).blk t).view.read (Elt Ideal) (V m c (Pipeline.arrRef spec0 1)) (ix2 r q) = _
  rw [View.read_apply]
  show V m c main_arg2 _ = V m c main_arg2 _
  congr 1
  funext a
  apply Fin.ext
  match a with
  | ⟨0, _⟩ => show win0_1.index t 0 * 2000 + 1 * r.val = t.val * 2000 + r.val; rw [(idx_facts t).2.1.1]; omega
  | ⟨1, _⟩ => show win0_1.index t 1 * 256 + 1 * q.val = q.val; rw [(idx_facts t).2.1.2]; omega

/-- Entry `r` of the weights' block at point `t` is the weight of row `2000 t + r`. -/
theorem blk2_apply (c : Dev nD) (t : Fin cfg0.N) (r : Fin 2000) :
    blk2 m c t (ix2 r (0 : Fin 1)) = Cert.Spec.colN (wts m c) (t.val * 2000 + r.val) := by
  have hN : t.val < 100 := lt_of_lt_of_eq t.isLt (show cfg0.N = 100 from N_0)
  have hv : t.val * 2000 + r.val < 200000 := by have := r.isLt; omega
  unfold Cert.Spec.colN
  rw [dif_pos hv]
  show ((cfg0.win 2).blk t).view.read (Elt Ideal) (V m c (Pipeline.arrRef spec0 2)) (ix2 r (0 : Fin 1)) = _
  rw [View.read_apply]
  show V m c main_v11 _ = V m c main_v11 _
  congr 1
  funext a
  apply Fin.ext
  match a with
  | ⟨0, _⟩ => show win0_2.index t 0 * 2000 + 1 * r.val = t.val * 2000 + r.val; rw [(idx_facts t).2.2.1]; omega
  | ⟨1, _⟩ => show win0_2.index t 1 * 1 + 1 * 0 = 0; rw [(idx_facts t).2.2.2]

/-- A block's weighted column sum is the specification's block sum. -/
theorem wsum0_eq (c : Dev nD) (t : Fin cfg0.N) (q : Fin 256) :
    ∑ r : Fin 2000, blk0 m c t (ix2 r q) * blk2 m c t (ix2 r (0 : Fin 1))
      = Cert.Spec.blockSum (tab0 m c) (wts m c) t.val q.val := by
  unfold Cert.Spec.blockSum
  rw [Finset.sum_range]
  exact Finset.sum_congr rfl fun r _ => by rw [blk0_apply, blk2_apply]

theorem wsum1_eq (c : Dev nD) (t : Fin cfg0.N) (q : Fin 256) :
    ∑ r : Fin 2000, blk1 m c t (ix2 r q) * blk2 m c t (ix2 r (0 : Fin 1))
      = Cert.Spec.blockSum (tab1 m c) (wts m c) t.val q.val := by
  unfold Cert.Spec.blockSum
  rw [Finset.sum_range]
  exact Finset.sum_congr rfl fun r _ => by rw [blk1_apply, blk2_apply]

end Blocks

section Accumulate

/-- The first point of a half leaves each accumulator at the point's block sum. -/
theorem acc3_A (c : Dev nD) (t : Fin cfg0.N) (h0 : t.val % 50 = 0) (q : Fin 256) :
    (outsAt0 m c t.val t.isLt).1 (ix3 (0 : Fin 1) (0 : Fin 1) q)
      = Cert.Spec.blockSum (tab0 m c) (wts m c) t.val q.val := by
  rw [outsAt0_A m c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (blk0 m c t) (blk1 m c t) (blk2 m c t)) (ix3 (0 : Fin 1) (0 : Fin 1) q)).trans ?_
  refine (pay4_apply (blk2 m c t) (k0_pay1 (F := Ideal)) (blk0 m c t) q).trans ?_
  rw [pay1_apply, zero_add, wsum0_eq]

theorem acc4_A (c : Dev nD) (t : Fin cfg0.N) (h0 : t.val % 50 = 0) (q : Fin 256) :
    (outsAt0 m c t.val t.isLt).2 (ix3 (0 : Fin 1) (0 : Fin 1) q)
      = Cert.Spec.blockSum (tab1 m c) (wts m c) t.val q.val := by
  rw [outsAt0_A m c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (blk0 m c t) (blk1 m c t) (blk2 m c t)) (ix3 (0 : Fin 1) (0 : Fin 1) q)).trans ?_
  refine (pay5_apply (blk2 m c t) (k0_pay2 (F := Ideal)) (blk1 m c t) q).trans ?_
  rw [pay2_apply, zero_add, wsum1_eq]

/-- Every other point adds its block sum to what the point before left. -/
theorem acc3_B (c : Dev nD) (t : Fin cfg0.N) (h0 : ¬t.val % 50 = 0) (q : Fin 256) :
    (outsAt0 m c t.val t.isLt).1 (ix3 (0 : Fin 1) (0 : Fin 1) q)
      = (outsAt0 m c (t.val - 1) (Nat.lt_of_le_of_lt (Nat.sub_le _ _) t.isLt)).1 (ix3 (0 : Fin 1) (0 : Fin 1) q)
        + Cert.Spec.blockSum (tab0 m c) (wts m c) t.val q.val := by
  rw [outsAt0_B m c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (blk0 m c t) (blk1 m c t) (blk2 m c t)
    (outsAt0 m c (t.val - 1) (Nat.lt_of_le_of_lt (Nat.sub_le _ _) t.isLt)).1
    (outsAt0 m c (t.val - 1) (Nat.lt_of_le_of_lt (Nat.sub_le _ _) t.isLt)).2) (ix3 (0 : Fin 1) (0 : Fin 1) q)).trans ?_
  refine (pay4_apply (blk2 m c t) (outsAt0 m c (t.val - 1) (Nat.lt_of_le_of_lt (Nat.sub_le _ _) t.isLt)).1 (blk0 m c t) q).trans ?_
  rw [wsum0_eq]

theorem acc4_B (c : Dev nD) (t : Fin cfg0.N) (h0 : ¬t.val % 50 = 0) (q : Fin 256) :
    (outsAt0 m c t.val t.isLt).2 (ix3 (0 : Fin 1) (0 : Fin 1) q)
      = (outsAt0 m c (t.val - 1) (Nat.lt_of_le_of_lt (Nat.sub_le _ _) t.isLt)).2 (ix3 (0 : Fin 1) (0 : Fin 1) q)
        + Cert.Spec.blockSum (tab1 m c) (wts m c) t.val q.val := by
  rw [outsAt0_B m c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (blk0 m c t) (blk1 m c t) (blk2 m c t)
    (outsAt0 m c (t.val - 1) (Nat.lt_of_le_of_lt (Nat.sub_le _ _) t.isLt)).1
    (outsAt0 m c (t.val - 1) (Nat.lt_of_le_of_lt (Nat.sub_le _ _) t.isLt)).2) (ix3 (0 : Fin 1) (0 : Fin 1) q)).trans ?_
  refine (pay5_apply (blk2 m c t) (outsAt0 m c (t.val - 1) (Nat.lt_of_le_of_lt (Nat.sub_le _ _) t.isLt)).2 (blk1 m c t) q).trans ?_
  rw [wsum1_eq]

/-- After point `n` the accumulators hold the block sums from the start of `n`'s half up to `n`. -/
theorem acc_eq (c : Dev nD) (q : Fin 256) : ∀ (n : ℕ) (h : n < cfg0.N),
    (outsAt0 m c n h).1 (ix3 (0 : Fin 1) (0 : Fin 1) q)
        = ∑ t ∈ Finset.Ico (n / 50 * 50) (n + 1), Cert.Spec.blockSum (tab0 m c) (wts m c) t q.val
      ∧ (outsAt0 m c n h).2 (ix3 (0 : Fin 1) (0 : Fin 1) q)
        = ∑ t ∈ Finset.Ico (n / 50 * 50) (n + 1), Cert.Spec.blockSum (tab1 m c) (wts m c) t q.val := by
  intro n
  induction n with
  | zero =>
    intro h
    have e : Finset.Ico (0 / 50 * 50) (0 + 1) = {0} := by decide
    rw [e, Finset.sum_singleton, Finset.sum_singleton]
    exact ⟨acc3_A m c ⟨0, h⟩ (Nat.zero_mod _) q, acc4_A m c ⟨0, h⟩ (Nat.zero_mod _) q⟩
  | succ n ih =>
    intro h
    by_cases h0 : (n + 1) % 50 = 0
    · have e : Finset.Ico ((n + 1) / 50 * 50) (n + 1 + 1) = {n + 1} := by
        rw [show (n + 1) / 50 * 50 = n + 1 by omega]; exact Nat.Ico_succ_singleton _
      rw [e, Finset.sum_singleton, Finset.sum_singleton]
      exact ⟨acc3_A m c ⟨n + 1, h⟩ h0 q, acc4_A m c ⟨n + 1, h⟩ h0 q⟩
    · have hlo : (n + 1) / 50 * 50 = n / 50 * 50 := by omega
      have hle : n / 50 * 50 ≤ n + 1 := by omega
      rw [hlo, Finset.sum_Ico_succ_top hle, Finset.sum_Ico_succ_top hle]
      have ihn := ih (Nat.lt_of_succ_lt h)
      refine ⟨(acc3_B m c ⟨n + 1, h⟩ h0 q).trans ?_, (acc4_B m c ⟨n + 1, h⟩ h0 q).trans ?_⟩
      · exact congrArg (· + _) ihn.1
      · exact congrArg (· + _) ihn.2

end Accumulate

section Final

/-- Point `t` writes back block `(t / 50, 0, 0)` of each result array. -/
theorem idx_out : ∀ t : Fin cfg0.N,
    (win0_3.index t 0 = t.val / 50 ∧ win0_3.index t 1 = 0 ∧ win0_3.index t 2 = 0)
      ∧ (win0_4.index t 0 = t.val / 50 ∧ win0_4.index t 1 = 0 ∧ win0_4.index t 2 = 0) :=
  (by decide +kernel : ∀ t : Fin grid0.N,
    (win0_3.index t 0 = t.val / 50 ∧ win0_3.index t 1 = 0 ∧ win0_3.index t 2 = 0)
      ∧ (win0_4.index t 0 = t.val / 50 ∧ win0_4.index t 1 = 0 ∧ win0_4.index t 2 = 0))

/-- An index of result array 0 is in point `t`'s block iff each coordinate is in the block's range on its axis. -/
theorem mem_blk3 (t : Fin cfg0.N) (i : S2x1x256.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_v12_0).slice (win0_3.rect t)).set ↔ _
  rw [View.set_slice_whole, Rect.mem_set_unit]
  exact Iff.rfl

/-- The last point of a half writes back the half's block of the half sums. -/
theorem flushed3_eq (c : Dev nD) (t : Fin cfg0.N) (hf : (cfg0.win 3).flush t = true) :
    (dats m 0 c).flushed 3 t
      = ((cfg0.win 3).blk t).view.read (Elt Ideal) (Cert.Spec.halves (tab0 m c) (wts m c)) := by
  have hN : t.val < 100 := lt_of_lt_of_eq t.isLt (show cfg0.N = 100 from N_0)
  have h49 : t.val % 50 = 49 := (flush0_3 t).mp hf
  show (cfg0.win 3).cut (grid0.coords t) ((dats m 0 c).after 3 t) = _
  rw [after0_3]
  show (outsAt0 m c t.val t.isLt).1
    = fun j : S1x1x256.Idx => Cert.Spec.halves (tab0 m c) (wts m c) (((cfg0.win 3).blk t).view.emb j)
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  rw [(acc_eq m c q t.val t.isLt).1]
  have e0 : ((((cfg0.win 3).blk t).view.emb (ix3 (0 : Fin 1) (0 : Fin 1) q)) 0).val = t.val / 50 := by
    show win0_3.index t 0 * 1 + 1 * 0 = _
    rw [(idx_out t).1.1]; omega
  have e2 : ((((cfg0.win 3).blk t).view.emb (ix3 (0 : Fin 1) (0 : Fin 1) q)) 2).val = q.val := by
    show win0_3.index t 2 * 256 + 1 * q.val = _
    rw [(idx_out t).1.2.2]; omega
  unfold Cert.Spec.halves
  dsimp only
  rw [e0, e2, show t.val / 50 * 50 + 50 = t.val + 1 by omega]

/-- Every index `(o, 0, q)` of result array 0 is in the block point `50 o + 49` writes back. -/
theorem cover3 (i : S2x1x256.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 256 := (i 2).isLt
  have hlt : 50 * (i 0).val + 49 < cfg0.N := by rw [show cfg0.N = 100 from N_0]; omega
  refine ⟨⟨50 * (i 0).val + 49, hlt⟩, (flush0_3 _).mpr (by dsimp only; omega), ?_⟩
  rw [mem_blk3]
  obtain ⟨e0, e1, e2⟩ := (idx_out ⟨50 * (i 0).val + 49, hlt⟩).1
  dsimp only at e0
  intro a
  match a with
  | ⟨0, _⟩ =>
    show win0_3.index ⟨50 * (i 0).val + 49, hlt⟩ 0 * 1 ≤ (i 0).val ∧ (i 0).val < win0_3.index ⟨50 * (i 0).val + 49, hlt⟩ 0 * 1 + 1
    rw [e0]; omega
  | ⟨1, _⟩ =>
    show win0_3.index ⟨50 * (i 0).val + 49, hlt⟩ 1 * 1 ≤ (i 1).val ∧ (i 1).val < win0_3.index ⟨50 * (i 0).val + 49, hlt⟩ 1 * 1 + 1
    rw [e1]; omega
  | ⟨2, _⟩ =>
    show win0_3.index ⟨50 * (i 0).val + 49, hlt⟩ 2 * 256 ≤ (i 2).val ∧ (i 2).val < win0_3.index ⟨50 * (i 0).val + 49, hlt⟩ 2 * 256 + 256
    rw [e2]; omega

/-- An index of result array 1 is in point `t`'s block iff each coordinate is in the block's range on its axis. -/
theorem mem_blk4 (t : Fin cfg0.N) (i : S2x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v12_1).slice (win0_4.rect t)).set ↔ _
  rw [View.set_slice_whole, Rect.mem_set_unit]
  exact Iff.rfl

/-- The last point of a half writes back the half's block of the half sums. -/
theorem flushed4_eq (c : Dev nD) (t : Fin cfg0.N) (hf : (cfg0.win 4).flush t = true) :
    (dats m 0 c).flushed 4 t
      = ((cfg0.win 4).blk t).view.read (Elt Ideal) (Cert.Spec.halves (tab1 m c) (wts m c)) := by
  have hN : t.val < 100 := lt_of_lt_of_eq t.isLt (show cfg0.N = 100 from N_0)
  have h49 : t.val % 50 = 49 := (flush0_4 t).mp hf
  show (cfg0.win 4).cut (grid0.coords t) ((dats m 0 c).after 4 t) = _
  rw [after0_4]
  show (outsAt0 m c t.val t.isLt).2
    = fun j : S1x1x256.Idx => Cert.Spec.halves (tab1 m c) (wts m c) (((cfg0.win 4).blk t).view.emb j)
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  rw [(acc_eq m c q t.val t.isLt).2]
  have e0 : ((((cfg0.win 4).blk t).view.emb (ix3 (0 : Fin 1) (0 : Fin 1) q)) 0).val = t.val / 50 := by
    show win0_4.index t 0 * 1 + 1 * 0 = _
    rw [(idx_out t).2.1]; omega
  have e2 : ((((cfg0.win 4).blk t).view.emb (ix3 (0 : Fin 1) (0 : Fin 1) q)) 2).val = q.val := by
    show win0_4.index t 2 * 256 + 1 * q.val = _
    rw [(idx_out t).2.2.2]; omega
  unfold Cert.Spec.halves
  dsimp only
  rw [e0, e2, show t.val / 50 * 50 + 50 = t.val + 1 by omega]

/-- Every index `(o, 0, q)` of result array 1 is in the block point `50 o + 49` writes back. -/
theorem cover4 (i : S2x1x256.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 256 := (i 2).isLt
  have hlt : 50 * (i 0).val + 49 < cfg0.N := by rw [show cfg0.N = 100 from N_0]; omega
  refine ⟨⟨50 * (i 0).val + 49, hlt⟩, (flush0_4 _).mpr (by dsimp only; omega), ?_⟩
  rw [mem_blk4]
  obtain ⟨e0, e1, e2⟩ := (idx_out ⟨50 * (i 0).val + 49, hlt⟩).2
  dsimp only at e0
  intro a
  match a with
  | ⟨0, _⟩ =>
    show win0_4.index ⟨50 * (i 0).val + 49, hlt⟩ 0 * 1 ≤ (i 0).val ∧ (i 0).val < win0_4.index ⟨50 * (i 0).val + 49, hlt⟩ 0 * 1 + 1
    rw [e0]; omega
  | ⟨1, _⟩ =>
    show win0_4.index ⟨50 * (i 0).val + 49, hlt⟩ 1 * 1 ≤ (i 1).val ∧ (i 1).val < win0_4.index ⟨50 * (i 0).val + 49, hlt⟩ 1 * 1 + 1
    rw [e1]; omega
  | ⟨2, _⟩ =>
    show win0_4.index ⟨50 * (i 0).val + 49, hlt⟩ 2 * 256 ≤ (i 2).val ∧ (i 2).val < win0_4.index ⟨50 * (i 0).val + 49, hlt⟩ 2 * 256 + 256
    rw [e2]; omega

end Final

/-- Result array 0 (the embedding table's half sums) after the region. -/
theorem final3 (c : Dev nD) :
    (dats (F := Ideal) m 0 c).arrAt 3 cfg0.N = Cert.Spec.halves (V m c main_arg1) (V m c main_v11) := by
  exact (dats (F := Ideal) m 0 c).arrAt_eq_of_cover 3 (Cert.Spec.halves (tab0 m c) (wts m c)) (flushed3_eq m c) cover3

/-- Result array 1 (the pretrained table's half sums) after the region. -/
theorem final4 (c : Dev nD) :
    (dats (F := Ideal) m 0 c).arrAt 4 cfg0.N = Cert.Spec.halves (V m c main_arg2) (V m c main_v11) := by
  exact (dats (F := Ideal) m 0 c).arrAt_eq_of_cover 4 (Cert.Spec.halves (tab1 m c) (wts m c)) (flushed4_eq m c) cover4

end Cert.KernelIdeal.Region

end
-- ==== Proof.LibScatterCount.lean ====
/-
  A histogram by scatter-add.

  Scattering the constant 1 with word addition into a zero vector of length N, at n start positions each inside the
  vector, leaves at entry `v` the number of positions whose start is `v` (as a 32-bit word; n below 2³² so no wrap).
  The scatter is a left fold over the n updates; entry `v` changes exactly at the updates that land on it.
-/
import Idealize.ShloMosaic.PureOps
import Idealize.ShloMosaic.Lib.ValueIdx
import Idealize.ShloMosaic.Lib.StableHlo.Predicate

noncomputable section

open scoped BigOperators

namespace Cert.Lib

open Idealize.ShloMosaic Idealize.ShloMosaic.ValueIdx

/-- A left fold of steps "add one at position `g b`": entry `i` gains one for every `b` in the list with `g b = i`. -/
theorem foldl_addOne_apply {ι β : Type} [DecidableEq ι] (g : β → ι) (l : List β) (r : ι → BitVec 32) (i : ι) :
    (l.foldl (fun (r : ι → BitVec 32) (b : β) => fun i' => if i' = g b then r (g b) + 1#32 else r i') r) i
      = r i + BitVec.ofNat 32 (l.countP fun b => g b = i) := by
  induction l generalizing r with
  | nil => simp
  | cons b l ih =>
    rw [List.foldl_cons, ih, List.countP_cons]
    by_cases h : g b = i
    · subst h
      simp only [if_true, decide_true, BitVec.ofNat_add, ite_true]
      rw [BitVec.add_assoc, BitVec.add_comm (BitVec.ofNat 32 1)]
    · have h' : ¬ i = g b := fun e => h e.symm
      simp [h, h']

section
variable {N n : Nat} (d : ScatterDims ⟨1, ![N]⟩ ⟨2, ![n, 1]⟩ ⟨1, ![n]⟩)

/-- The scatter-indices position update `j` reads its one start component from: row `j`, column 0. -/
theorem siIdx_eq (hsd : d.scatterDimsToOperandDims = [0]) (hivd : d.indexVectorDim = 1)
    (j : (⟨1, ![n]⟩ : Shape).Idx) (c : Fin d.scatterDimsToOperandDims.length) :
    d.siIdx j c = ix2 (j 0 : Fin n) (0 : Fin 1) := by
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show c.val = 0
    have hc : c.val < d.scatterDimsToOperandDims.length := c.isLt
    have hl : d.scatterDimsToOperandDims.length = 1 := by rw [hsd]; rfl
    omega

end

section
variable {N n : Nat} (d : ScatterDims ⟨1, ![N]⟩ ⟨2, ![n, 1]⟩ ⟨1, ![n]⟩)

/-- Update `j` lands on the operand entry its start index names: the one operand axis is scattered (start = the index,
    read signed, here non-negative) and inserted (no window coordinate), and the index is inside the operand. -/
theorem resultIdx_eq (hins : d.insertedWindowDims = [0]) (hsd : d.scatterDimsToOperandDims = [0])
    (hivd : d.indexVectorDim = 1) (idx : IVec ⟨2, ![n, 1]⟩ 32)
    (hin : ∀ k : Fin n, (idx (ix2 k (0 : Fin 1))).toNat < N) (hN : N < 2 ^ 31)
    (j : (⟨1, ![n]⟩ : Shape).Idx) :
    d.resultIdx? j idx = some (ix1 ⟨(idx (ix2 (j 0 : Fin n) (0 : Fin 1))).toNat, hin (j 0)⟩) := by
  have hst : ∀ a, d.start j idx a = ((idx (ix2 (j 0 : Fin n) (0 : Fin 1))).toNat : Int) := fun a => by
    have ha0 : a = 0 := Subsingleton.elim _ _
    subst ha0
    have hm : (0 : Fin 1) ∈ d.scatterDimsToOperandDims := by rw [hsd]; exact List.mem_singleton.mpr rfl
    unfold ScatterDims.start
    rw [dif_pos hm, siIdx_eq d hsd hivd]
    exact StableHlo.Predicate.toInt_eq_toNat_of_lt (lt_trans (hin (j 0)) hN)
  have hw : ∀ a, d.window j a = 0 := fun a => by
    have hk : a ∉ d.sKept := by
      have ha0 : a = 0 := Subsingleton.elim _ _
      subst ha0
      simp [ScatterDims.sKept, Shape.kept, hins]
    unfold ScatterDims.window
    rw [dif_neg hk]
  unfold ScatterDims.resultIdx?
  have hall : ∀ a, 0 ≤ d.start j idx a + d.window j a ∧ d.start j idx a + d.window j a < (⟨1, ![N]⟩ : Shape).size a := fun a => by
    have ha0 : a = 0 := Subsingleton.elim _ _
    subst ha0
    rw [hst, hw]
    have := hin (j 0)
    constructor
    · omega
    · show _ < ((N : Nat) : Int)
      omega
  rw [dif_pos hall]
  congr 1
  funext a
  have ha0 : a = 0 := Subsingleton.elim _ _
  subst ha0
  apply Fin.ext
  show (d.start j idx 0 + d.window j 0).toNat = (idx (ix2 (j 0 : Fin n) (0 : Fin 1))).toNat
  rw [hst, hw]
  omega

end

/-- An entry of a rank-1 index determines it. -/
theorem ix1_inj {n : Nat} {a b : Fin n} : ix1 a = ix1 b ↔ a = b :=
  ⟨fun h => congrFun h 0, fun h => h ▸ rfl⟩

/-- A rank-1 index is its one coordinate. -/
theorem ix1_coord {n : Nat} (j : (⟨1, ![n]⟩ : Shape).Idx) : ix1 (j 0 : Fin n) = j := by
  funext a
  match a with
  | ⟨0, _⟩ => rfl

/-- `zeros.at[idx].add(1)` over a rank-1 operand, the n scatter indices an [n, 1] column, every index inside the
    operand: entry `v` ends at the number of positions `k` with `idx[k] = v`. The four dimension-number
    hypotheses are the printed record's fields, each by `rfl`. -/
theorem scatter_count {N n : Nat} (d : ScatterDims ⟨1, ![N]⟩ ⟨2, ![n, 1]⟩ ⟨1, ![n]⟩)
    (hupd : d.updateWindowDims = []) (hins : d.insertedWindowDims = [0]) (hsd : d.scatterDimsToOperandDims = [0])
    (hivd : d.indexVectorDim = 1)
    (idx : IVec ⟨2, ![n, 1]⟩ 32) (hin : ∀ k : Fin n, (idx (ix2 k (0 : Fin 1))).toNat < N) (hN : N < 2 ^ 31) (hn : n < 2 ^ 32)
    (v : Fin N) :
    Host.scatter d IntOp.addi (fun _ => 0#32) idx (fun _ => 1#32) (ix1 v)
      = BitVec.ofNat 32 (Finset.univ.filter fun k : Fin n => (idx (ix2 k (0 : Fin 1))).toNat = v.val).card := by
  -- where update number `m` lands
  let g : Fin (⟨1, ![n]⟩ : Shape).numel → (⟨1, ![N]⟩ : Shape).Idx := fun m =>
    ix1 ⟨(idx (ix2 (((⟨1, ![n]⟩ : Shape).rowMajor.symm m) 0 : Fin n) (0 : Fin 1))).toNat, hin _⟩
  -- the scatter is the fold of "add one where update m lands"
  have key : Host.scatter d IntOp.addi (fun _ => 0#32) idx (fun _ => 1#32)
      = (List.finRange (⟨1, ![n]⟩ : Shape).numel).foldl
          (fun (r : (⟨1, ![N]⟩ : Shape).Idx → BitVec 32) m => fun i' => if i' = g m then r (g m) + 1#32 else r i')
          (fun _ => 0#32) := by
    unfold Host.scatter
    refine List.foldl_ext _ _ _ (fun r m _ => ?_)
    rw [resultIdx_eq d hins hsd hivd idx hin hN]
    rfl
  -- the updates that land on `v` are the positions whose start is `v`
  have hcount : (List.finRange (⟨1, ![n]⟩ : Shape).numel).countP (fun m => g m = ix1 v)
      = (Finset.univ.filter fun k : Fin n => (idx (ix2 k (0 : Fin 1))).toNat = v.val).card := by
    have hg : ∀ m, g m = ix1 v ↔
        (idx (ix2 (((⟨1, ![n]⟩ : Shape).rowMajor.symm m) 0 : Fin n) (0 : Fin 1))).toNat = v.val := fun m => by
      rw [ix1_inj, Fin.ext_iff]
    rw [List.countP_eq_length_filter, ← List.toFinset_card_of_nodup ((List.nodup_finRange _).filter _),
      List.toFinset_filter, List.toFinset_finRange]
    refine Finset.card_bij' (fun m _ => (((⟨1, ![n]⟩ : Shape).rowMajor.symm m) 0 : Fin n))
      (fun k _ => (⟨1, ![n]⟩ : Shape).rowMajor (ix1 k)) ?_ ?_ ?_ ?_
    · intro m hm
      exact Finset.mem_filter.2 ⟨Finset.mem_univ _, (hg m).1 (of_decide_eq_true (Finset.mem_filter.1 hm).2)⟩
    · intro k hk
      refine Finset.mem_filter.2 ⟨Finset.mem_univ _, decide_eq_true ((hg _).2 ?_)⟩
      rw [Equiv.symm_apply_apply]
      exact (Finset.mem_filter.1 hk).2
    · intro m _
      exact (congrArg _ (ix1_coord _)).trans (Equiv.apply_symm_apply _ _)
    · intro k _
      show (((⟨1, ![n]⟩ : Shape).rowMajor.symm ((⟨1, ![n]⟩ : Shape).rowMajor (ix1 k))) 0 : Fin n) = k
      rw [Equiv.symm_apply_apply]
      rfl
  rw [key, foldl_addOne_apply, hcount]
  exact BitVec.zero_add _

end Cert.Lib

end
-- ==== Proof.LibHostLine.lean ====
/-
  Three general facts about a straight line of host operations.

  Running a line of operations folds them over the contents of the buffers, the first operation innermost.  So running
  one line and then another is running the second over what the first left.  And the result of an operation with three
  operands listed one by one is its function of the three operands' contents, each at its own reference, so that what is
  known of each operand can be put in its place.  Last, an operation written over typed references moves each value to its
  buffer's own type and back; there and back is the identity.
-/
import Idealize.ShloMosaic.Lib.StableHlo.Run

noncomputable section

namespace Cert.Lib

open Idealize.ShloMosaic Idealize.ShloMosaic.StableHlo Idealize.ShloMosaic.TcCoe

variable {τ : Topo} {sig : RefSig} {Val : EltTy → Type}

/-- A line followed by another: the second runs over what the first left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's buffer type and back are unchanged. -/
theorem ofBuf_toBuf {T : BufTy} (x : TRef sig T) (v : T.Contents Val) : x.ofBuf (x.toBuf v) = v := by
  obtain ⟨r, h, _, _⟩ := x
  subst h
  rfl

/-- The result of a three-operand operation at its result buffer, with each operand's contents at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

end Cert.Lib

end
-- ==== Proof.KCounts.lean ====
/-
  The weights the region streams: the histogram of the row numbers.

  Before the region the program clips the row numbers below at 0, applies the negative-index wrap (never taken after
  the clip), scatters ones into a zero vector, converts to float and reshapes to a column.  With every row number in
  range the clip and the wrap change nothing, so entry v is the number of positions that select row v, as a real.
-/
import proofs.«431507_j40218073760223_2_alg».proof.Proof.Gen.KernelIdeal.Frame.Runs
import proofs.«431507_j40218073760223_2_alg».proof.Proof.Spec
import proofs.«431507_j40218073760223_2_alg».proof.Proof.LibScatterCount
import proofs.«431507_j40218073760223_2_alg».proof.Proof.LibHostLine
import Idealize.ShloMosaic.Lib.StableHlo.Run
import Idealize.ShloMosaic.Lib.StableHlo.Predicate
import Idealize.ShloMosaic.Lib.Pipeline.Value

noncomputable section

open scoped BigOperators

open Idealize.ShloMosaic Idealize.ShloMosaic.TcCoe Idealize.SL.Sem

namespace Cert.KernelIdeal.Counts

open Cert.KernelIdeal Cert.KernelIdeal.Gen Idealize.ShloMosaic.ValueIdx

/-- The row numbers clipped below at zero. -/
def clipped (x0 : IVec S100000 32) : IVec S100000 32 :=
  maxsi (broadcastInDim S100000 ![] bcast_S_S100000 (constantI S_ 32 0#32)) x0

/-- The weights column as a function of the clipped row numbers: the negative-index wrap, the scatter of ones into
    zeros, the conversion to float, the reshape to a column. -/
def weights (z : IVec S200000 32) (v1 : IVec S100000 32) : FVec Ideal S200000x1 .f32 :=
  shapeCast S200000x1
    (sitofp (F := Ideal) .f32
      (Host.scatter scatter_S200000_S100000x1_S100000_n_0_0_1 IntOp.addi z
        (broadcastInDim S100000x1 ![0] bcast_S100000_S100000x1_0
          (select (cmpi .slt v1 (broadcastInDim S100000 ![] bcast_S_S100000 (constantI S_ 32 0#32)))
            (addi v1 (broadcastInDim S100000 ![] bcast_S_S100000 (constantI S_ 32 200000#32))) v1))
        (broadcastInDim S100000 ![] bcast_S_S100000 (constantI S_ 32 1#32))))
    shapeCasts_S200000_S200000x1

/-- The last stretch before the region, over any buffer contents. -/
theorem stretch2 (W : Valuation τ sig (Elt Ideal)) :
    StableHlo.after (hostOps0_2 (F := Ideal)) W (Proc.devRef .tc main_v11)
      = weights (W (Proc.devRef .tc main_v0)) (W (Proc.devRef .tc main_v1)) := by
  after_results
  rfl

/-- The clip's three lines, over any buffer contents: the clipped row numbers, -/
theorem stretch1_v1 (W : Valuation τ sig (Elt Ideal)) :
    StableHlo.after (hostOps0_1 (F := Ideal)) W (Proc.devRef .tc main_v1)
      = maxsi (broadcastInDim S100000 ![] bcast_S_S100000 (W (Proc.devRef .tc main_c_0))) (W (Proc.devRef .tc main_arg0)) := by
  after_results
  rfl

/-- and the zero vector untouched. -/
theorem stretch1_v0 (W : Valuation τ sig (Elt Ideal)) :
    StableHlo.after (hostOps0_1 (F := Ideal)) W (Proc.devRef .tc main_v0) = W (Proc.devRef .tc main_v0) := by
  after_results

/-- The first three lines: the zero vector, the zero scalar, the row numbers untouched. -/
theorem stretch0_v0 (W : Valuation τ sig (Elt Ideal)) :
    StableHlo.after (hostOps0 (F := Ideal)) W (Proc.devRef .tc main_v0)
      = broadcastInDim S200000 ![] bcast_S_S200000 (constantI S_ 32 0#32) := by
  after_results
theorem stretch0_c0 (W : Valuation τ sig (Elt Ideal)) :
    StableHlo.after (hostOps0 (F := Ideal)) W (Proc.devRef .tc main_c_0) = constantI S_ 32 0#32 := by
  after_results
theorem stretch0_arg0 (W : Valuation τ sig (Elt Ideal)) :
    StableHlo.after (hostOps0 (F := Ideal)) W (Proc.devRef .tc main_arg0) = W (Proc.devRef .tc main_arg0) := by
  after_results

/-- Three stretches in a row. -/
theorem after_three (a b c : List (HloOp τ sig (Elt Ideal))) (W : Valuation τ sig (Elt Ideal)) :
    StableHlo.after (List.flatten [a, b, c]) W = StableHlo.after c (StableHlo.after b (StableHlo.after a W)) := by
  simp only [List.flatten_cons, List.flatten_nil, List.append_nil, Cert.Lib.after_append]

variable (m : (ℓ : Loc nD τ sig) → Buf (Elt Ideal) ℓ)

/-- The weights the region streams, as a function of the row numbers as launched. -/
theorem weights_eq (c : Dev nD) :
    V m c main_v11 = weights (broadcastInDim S200000 ![] bcast_S_S200000 (constantI S_ 32 0#32))
      (clipped (m ((c : Thread nD τ).loc main_arg0))) := by
  show StableHlo.after (List.flatten [hostOps0, hostOps0_1, hostOps0_2]) (fun b => m (c, b)) (Proc.devRef .tc main_v11) = _
  rw [after_three, stretch2, stretch1_v0, stretch1_v1, stretch0_v0, stretch0_c0, stretch0_arg0]
  rfl

/-- A word below 200000 is non-negative as a signed number: clipping it below at zero leaves it, -/
theorem maxsi_zero_of_lt (a : BitVec 32) (h : a.toNat < 200000) : IntOp.maxsi 0#32 a = a := by
  have hi : a.toInt = a.toNat := StableHlo.Predicate.toInt_eq_toNat_of_lt (by omega)
  unfold IntOp.maxsi
  rw [if_neg]
  simp only [BitVec.slt, hi, show (0#32 : BitVec 32).toInt = 0 from by decide, decide_eq_true_eq]
  omega

/-- and the test "negative" fails on it. -/
theorem slt_zero_of_lt (a : BitVec 32) (h : a.toNat < 200000) : IntOp.cmpi .slt a 0#32 = 0#1 := by
  refine ValueIdx.eq_zero_of_ne_one fun h1 => ?_
  have := (StableHlo.Predicate.slt_iff_toNat (a := a) (b := 0#32) (by omega) (by decide)).mp h1
  simp at this

/-- With every row number in range, entry `v` of the weights column is the number of positions selecting row `v`:
    the clip and the wrap leave the row numbers as they are, the scatter counts them, and the count, at most 100000,
    converts to the real number it is. -/
theorem counts_apply (c : Dev nD) (hx : Cert.Spec.InRange (m ((c : Thread nD τ).loc main_arg0))) (v : Fin 200000) :
    (V m c main_v11 : Cert.Spec.Col.Idx → EReal) (ix2 v (0 : Fin 1))
      = ((Cert.Spec.count (m ((c : Thread nD τ).loc main_arg0)) v.val : ℝ) : EReal) := by
  rw [weights_eq]
  generalize hx0 : m ((c : Thread nD τ).loc main_arg0) = x0 at hx
  have hx0' : ∀ k : Fin 100000, ((x0 : IVec S100000 32) (ix1 k)).toNat < 200000 := hx
  unfold weights
  rw [shapeCast_apply _ shapeCasts_S200000_S200000x1 (ix2 v (0 : Fin 1)) (ix1 v) (by
    show (Shape.rowMajorPi _ _).val = (Shape.rowMajorPi _ _).val
    simp [Shape.rowMajorPi_succ_val, Shape.rowMajorPi_zero, Fin.prod_univ_succ])]
  rw [ValueIdx.sitofp_apply]
  have hz : (broadcastInDim S200000 ![] bcast_S_S200000 (constantI S_ 32 0#32) : IVec S200000 32) = fun _ => 0#32 :=
    funext fun i => StableHlo.Predicate.bcast_scalar bcast_S_S200000 h_S_ _ i
  have hu : (broadcastInDim S100000 ![] bcast_S_S100000 (constantI S_ 32 1#32) : IVec S100000 32) = fun _ => 1#32 :=
    funext fun i => StableHlo.Predicate.bcast_scalar bcast_S_S100000 h_S_ _ i
  have hidx : ∀ k : Fin 100000,
      (broadcastInDim S100000x1 ![0] bcast_S100000_S100000x1_0
        (select (cmpi .slt (clipped x0) (broadcastInDim S100000 ![] bcast_S_S100000 (constantI S_ 32 0#32)))
          (addi (clipped x0) (broadcastInDim S100000 ![] bcast_S_S100000 (constantI S_ 32 200000#32))) (clipped x0))
        : IVec S100000x1 32) (ix2 k (0 : Fin 1)) = x0 (ix1 k) := by
    intro k
    rw [broadcastInDim_apply _ bcast_S100000_S100000x1_0 _ (ix2 k (0 : Fin 1)) (ix1 k) (fun a => match a with
      | ⟨0, _⟩ => by show k.val = if (100000 : Nat) = 1 then 0 else k.val; rw [if_neg (by decide)])]
    have hc : clipped x0 (ix1 k) = x0 (ix1 k) := by
      show IntOp.maxsi (broadcastInDim S100000 ![] bcast_S_S100000 (constantI S_ 32 0#32) (ix1 k)) (x0 (ix1 k)) = _
      rw [StableHlo.Predicate.bcast_scalar bcast_S_S100000 h_S_]
      exact maxsi_zero_of_lt _ (hx0' k)
    show Scalar.select (IntOp.cmpi .slt (clipped x0 (ix1 k)) (broadcastInDim S100000 ![] bcast_S_S100000 (constantI S_ 32 0#32) (ix1 k)))
      (IntOp.addi (clipped x0 (ix1 k)) _) (clipped x0 (ix1 k)) = _
    rw [StableHlo.Predicate.bcast_scalar bcast_S_S100000 h_S_, hc]
    show Scalar.select (IntOp.cmpi .slt (x0 (ix1 k)) 0#32) _ _ = _
    rw [slt_zero_of_lt _ (hx0' k), ValueIdx.select_zero]
  rw [hz, hu, Cert.Lib.scatter_count scatter_S200000_S100000x1_S100000_n_0_0_1 rfl rfl rfl rfl _ (fun k => by rw [hidx k]; exact hx0' k)
    (by decide) (by decide) v]
  simp only [hidx]
  show ((((BitVec.ofNat 32 _).toInt : ℝ)) : EReal) = _
  have hcard : (Finset.univ.filter fun k : Fin 100000 => (x0 (ix1 k)).toNat = v.val).card ≤ 100000 :=
    (Finset.card_filter_le _ _).trans (by simp)
  rw [StableHlo.Predicate.toInt_ofNat_small _ (by omega), Int.cast_natCast]
  rfl

end Cert.KernelIdeal.Counts

end
-- ==== Proof.KTail.lean ====
/-
  The lines after the region: add the two halves of each result array, multiply the embedding sum by the transposed
  matrix, add the pretrained sum, add 100000 times the bias.
-/
import proofs.«431507_j40218073760223_2_alg».proof.Proof.Gen.KernelIdeal.Frame
import proofs.«431507_j40218073760223_2_alg».proof.Proof.Spec
import Idealize.ShloMosaic.Lib.StableHlo.Run
import Idealize.ShloMosaic.Lib.Pipeline.Value
import Idealize.ShloMosaic.PureOps.Ideal.Laws

noncomputable section

open scoped BigOperators

open Idealize.ShloMosaic Idealize.ShloMosaic.TcCoe Idealize.SL.Sem

namespace Cert.KernelIdeal.Tail

open Cert.KernelIdeal Cert.KernelIdeal.Gen Idealize.ShloMosaic.ValueIdx

/-- The lines after the region as one function of the region's two result arrays, the matrix and the bias. -/
def tailFn (A3 A4 : FVec Ideal S2x1x256 .f32) (W : FVec Ideal S256x256 .f32) (b : FVec Ideal S256 .f32) : FVec Ideal S1x1x256 .f32 :=
  broadcastInDim S1x1x256 ![1, 2] bcast_S1x256_S1x1x256_1_2
    (addf (F := Ideal)
      (addf (F := Ideal)
        (Host.reduceAdd (F := Ideal) A4 (constant (F := Ideal) S_ .f32 0x00000000#32) reducesTo_S2x1x256_S1x256_d0 h_S_)
        (Host.dotGeneral (F := Ideal) dot_S1x256_S256x256_S1x256_1_0_0_1_n_n (some .fp32)
          (Host.reduceAdd (F := Ideal) A3 (constant (F := Ideal) S_ .f32 0x00000000#32) reducesTo_S2x1x256_S1x256_d0 h_S_)
          (transpose S256x256 [1, 0] W transposes_S256x256_S256x256_1_0)))
      (mulf (F := Ideal) (broadcastInDim S1x256 ![] bcast_S_S1x256 (constant (F := Ideal) S_ .f32 0x47C35000#32))
        (broadcastInDim S1x256 ![1] bcast_S256_S1x256_1 b)))

/-- Adding the two halves: column q of the sum is the zero plus both halves' entries. -/
theorem halfSum_apply (A : FVec Ideal S2x1x256 .f32) (q : Fin 256) :
    Host.reduceAdd (F := Ideal) A (constant (F := Ideal) S_ .f32 0x00000000#32) reducesTo_S2x1x256_S1x256_d0 h_S_ (ix2 (0 : Fin 1) q)
      = Cert.Spec.fzero + ∑ o : Fin 2, A (ix3 o (0 : Fin 1) q) := by
  simp only [Host.reduceAdd, Ideal.hostReduceAdd_def]
  rw [Ideal.hostReduceAdd_single reducesTo_S2x1x256_S1x256_d0 (by decide)]
  refine congrArg₂ (· + ·) rfl (Finset.sum_congr rfl fun k _ => ?_)
  exact congrArg A (funext fun a => Fin.ext (by match a with | ⟨0, _⟩ => rfl | ⟨1, _⟩ => rfl | ⟨2, _⟩ => rfl))

theorem lhs_dot_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_dot_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_dot_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_dot_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- The one-row product with the matrix: column j is the sum over q of the row's entry q times the matrix's (q, j). -/
theorem rowDot_apply (l : FVec Ideal S1x256 .f32) (r : FVec Ideal S256x256 .f32) (j : Fin 256) :
    Host.dotGeneral (F := Ideal) dot_S1x256_S256x256_S1x256_1_0_0_1_n_n (some .fp32) l r (ix2 (0 : Fin 1) j)
      = ∑ q : Fin 256, l (ix2 (0 : Fin 1) q) * r (ix2 q j) := by
  simp only [Host.dotGeneral]
  rw [Ideal.dotGeneral_apply, ← Equiv.sum_comp (ValueIdx.contrEquiv1 dot_S1x256_S256x256_S1x256_1_0_0_1_n_n 256 rfl rfl).symm]
  refine Finset.sum_congr rfl fun k _ => ?_
  have hk := ValueIdx.contrEquiv1_symm_val dot_S1x256_S256x256_S1x256_1_0_0_1_n_n 256 rfl rfl k
  have el : dot_S1x256_S256x256_S1x256_1_0_0_1_n_n.lhsIdx (ix2 (0 : Fin 1) j) ((ValueIdx.contrEquiv1 dot_S1x256_S256x256_S1x256_1_0_0_1_n_n 256 rfl rfl).symm k) = ix2 (0 : Fin 1) k := funext fun a => Fin.ext (by
    match a with
    | ⟨0, _⟩ => exact lhs_dot_0 _ _
    | ⟨1, _⟩ => exact (lhs_dot_1 _ _).trans hk)
  have er : dot_S1x256_S256x256_S1x256_1_0_0_1_n_n.rhsIdx (ix2 (0 : Fin 1) j) ((ValueIdx.contrEquiv1 dot_S1x256_S256x256_S1x256_1_0_0_1_n_n 256 rfl rfl).symm k) = ix2 k j := funext fun a => Fin.ext (by
    match a with
    | ⟨0, _⟩ => exact (rhs_dot_0 _ _).trans hk
    | ⟨1, _⟩ => exact rhs_dot_1 _ _)
  rw [el, er]

/-- The transposed matrix at (q, j) is the matrix at (j, q). -/
theorem transposeW_apply (W : FVec Ideal S256x256 .f32) (q j : Fin 256) :
    transpose S256x256 [1, 0] W transposes_S256x256_S256x256_1_0 (ix2 q j) = W (ix2 j q) :=
  transpose_apply [1, 0] W transposes_S256x256_S256x256_1_0 (ix2 q j) (ix2 j q) (fun b => match b with
    | ⟨0, _⟩ => rfl
    | ⟨1, _⟩ => rfl)

/-- The closing expression at column j. -/
theorem tailFn_apply (A3 A4 : FVec Ideal S2x1x256 .f32) (W : FVec Ideal S256x256 .f32) (b : FVec Ideal S256 .f32) (j : Fin 256) :
    tailFn A3 A4 W b (ix3 (0 : Fin 1) (0 : Fin 1) j) = Cert.Spec.kernelForm A3 A4 W b j := by
  unfold tailFn
  rw [broadcastInDim_apply _ bcast_S1x256_S1x1x256_1_2 _ (ix3 (0 : Fin 1) (0 : Fin 1) j) (ix2 (0 : Fin 1) j) (fun a => match a with
    | ⟨0, _⟩ => by show 0 = if (1 : Nat) = 1 then 0 else _; rw [if_pos rfl]
    | ⟨1, _⟩ => by show j.val = if (256 : Nat) = 1 then 0 else j.val; rw [if_neg (by decide)])]
  show (Host.reduceAdd (F := Ideal) A4 _ _ _ (ix2 (0 : Fin 1) j) + Host.dotGeneral (F := Ideal) _ _ _ _ (ix2 (0 : Fin 1) j))
      + (broadcastInDim S1x256 ![] bcast_S_S1x256 (constant (F := Ideal) S_ .f32 0x47C35000#32) (ix2 (0 : Fin 1) j)
        * broadcastInDim S1x256 ![1] bcast_S256_S1x256_1 b (ix2 (0 : Fin 1) j)) = _
  rw [halfSum_apply, rowDot_apply,
    broadcastInDim_apply _ bcast_S_S1x256 _ (ix2 (0 : Fin 1) j) ix0 (fun a => a.elim0),
    broadcastInDim_apply _ bcast_S256_S1x256_1 b (ix2 (0 : Fin 1) j) (ix1 j) (fun a => match a with
      | ⟨0, _⟩ => by show j.val = if (256 : Nat) = 1 then 0 else j.val; rw [if_neg (by decide)])]
  unfold Cert.Spec.kernelForm
  refine congrArg₂ (· + ·) (congrArg₂ (· + ·) rfl (Finset.sum_congr rfl fun q _ => ?_)) rfl
  rw [halfSum_apply, transposeW_apply]

/-- The thirteen lines after the region, run over any buffer contents: the result buffer ends at the tail function of
    the four buffers the lines read. -/
theorem tail_after (W : Valuation τ sig (Elt Ideal)) :
    StableHlo.after (hostOps1 (F := Ideal)) W (Proc.devRef .tc main_v22)
      = tailFn (W (Proc.devRef .tc main_v12_0)) (W (Proc.devRef .tc main_v12_1)) (W (Proc.devRef .tc main_arg3))
          (W (Proc.devRef .tc main_arg4)) := by
  after_results
  rfl

variable (m : (ℓ : Loc nD τ sig) → Buf (Elt Ideal) ℓ)

/-- After the lines that follow the region the result buffer holds the tail function of the region's two result arrays
    and of the matrix and the bias as launched. -/
theorem tail_eq (c : Dev nD) :
    Pipeline.afterTail₀ cfgs (dats (F := Ideal) m) 0 (V0 m) [hostOps1] c main_v22
      = tailFn ((dats (F := Ideal) m 0 c).arrAt 3 cfg0.N) ((dats (F := Ideal) m 0 c).arrAt 4 cfg0.N)
          (m ((c : Thread nD τ).loc main_arg3)) (m ((c : Thread nD τ).loc main_arg4)) := by
  unfold Pipeline.afterTail₀
  refine (tail_after _).trans ?_
  have e3 : Pipeline.withArrays (cfgs 0).spec c (V0 m c) (fun w => (dats (F := Ideal) m 0 c).arrAt w (cfgs 0).N) (Proc.devRef .tc main_v12_0)
      = (dats (F := Ideal) m 0 c).arrAt 3 cfg0.N :=
    Pipeline.withArrays_arr spec0 launch0.win.arr_inj c (V0 m c) (fun w => (dats (F := Ideal) m 0 c).arrAt w (cfgs 0).N) 3
  have e4 : Pipeline.withArrays (cfgs 0).spec c (V0 m c) (fun w => (dats (F := Ideal) m 0 c).arrAt w (cfgs 0).N) (Proc.devRef .tc main_v12_1)
      = (dats (F := Ideal) m 0 c).arrAt 4 cfg0.N :=
    Pipeline.withArrays_arr spec0 launch0.win.arr_inj c (V0 m c) (fun w => (dats (F := Ideal) m 0 c).arrAt w (cfgs 0).N) 4
  have eW : Pipeline.withArrays (cfgs 0).spec c (V0 m c) (fun w => (dats (F := Ideal) m 0 c).arrAt w (cfgs 0).N) (Proc.devRef .tc main_arg3)
      = m ((c : Thread nD τ).loc main_arg3) :=
    (Pipeline.withArrays_of_ne spec0 c (V0 m c) (fun w => (dats (F := Ideal) m 0 c).arrAt w (cfgs 0).N) main_arg3
      (by exact (by decide : ∀ w, Pipeline.arrRef spec0 w ≠ main_arg3))).trans (V_main_arg3 m c)
  have eb : Pipeline.withArrays (cfgs 0).spec c (V0 m c) (fun w => (dats (F := Ideal) m 0 c).arrAt w (cfgs 0).N) (Proc.devRef .tc main_arg4)
      = m ((c : Thread nD τ).loc main_arg4) :=
    (Pipeline.withArrays_of_ne spec0 c (V0 m c) (fun w => (dats (F := Ideal) m 0 c).arrAt w (cfgs 0).N) main_arg4
      (by exact (by decide : ∀ w, Pipeline.arrRef spec0 w ≠ main_arg4))).trans (V_main_arg4 m c)
  rw [e3, e4, eW, eb]

theorem tail_apply (c : Dev nD) (j : Fin 256) :
    (Pipeline.afterTail₀ cfgs (dats (F := Ideal) m) 0 (V0 m) [hostOps1] c main_v22 : Cert.Spec.Out.Idx → EReal)
        (ix3 (0 : Fin 1) (0 : Fin 1) j)
      = Cert.Spec.kernelForm ((dats (F := Ideal) m 0 c).arrAt 3 cfg0.N) ((dats (F := Ideal) m 0 c).arrAt 4 cfg0.N)
          (m ((c : Thread nD τ).loc main_arg3)) (m ((c : Thread nD τ).loc main_arg4)) j := by
  rw [tail_eq]
  exact tailFn_apply _ _ _ _ j

end Cert.KernelIdeal.Tail

end
-- ==== Proof.lean ====
/-
  Two programs for one sum.  A list of 100000 row numbers selects rows of two [200000, 256] tables.  The reference
  gathers the selected rows and sums them position by position; the kernel counts how often each row is selected and
  streams both tables once, adding each row scaled by its count, in two halves of fifty blocks.  Both finish with
  `Σ pre-rows + (Σ emb-rows) · Wᵀ + 100000 · bias`.

  The claim holds where every row number lies in [0, 200000): there the reference's negative-index wrap and the
  gather's clamp are inert, the kernel's clip below zero is inert and no update is dropped, and the count-weighted sum
  over all rows is the sum over the selected positions.  With all float entries real the two closing expressions agree
  (`n · (S / n + b) = S + n · b` needs finiteness).
-/
import proofs.«431507_j40218073760223_2_alg».proof.Defs
import proofs.«431507_j40218073760223_2_alg».proof.Proof.Gen.Kernel
import proofs.«431507_j40218073760223_2_alg».proof.Proof.Gen.Kernel.Frame
import proofs.«431507_j40218073760223_2_alg».proof.Proof.Gen.KernelIdeal
import proofs.«431507_j40218073760223_2_alg».proof.Proof.Gen.KernelIdeal.Frame
import proofs.«431507_j40218073760223_2_alg».proof.Proof.Gen.ReferenceIdeal
import proofs.«431507_j40218073760223_2_alg».proof.Proof.Gen.Pre_finite_inputs
import proofs.«431507_j40218073760223_2_alg».proof.Proof.Gen.ReferenceIdeal.Run
import proofs.«431507_j40218073760223_2_alg».proof.Proof.Gen.ReferenceIdeal.Read
import proofs.«431507_j40218073760223_2_alg».proof.Proof.Spec
import proofs.«431507_j40218073760223_2_alg».proof.Proof.Algebra
import proofs.«431507_j40218073760223_2_alg».proof.Proof.PreFacts
import proofs.«431507_j40218073760223_2_alg».proof.Proof.RefValue
import proofs.«431507_j40218073760223_2_alg».proof.Proof.KRegion
import proofs.«431507_j40218073760223_2_alg».proof.Proof.KCounts
import proofs.«431507_j40218073760223_2_alg».proof.Proof.KTail
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's run at the ideal instance, with its result buffer named: what the lines after the region compute
    from the two result arrays of the region; the five arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v22)
          = Pipeline.afterTail₀ Cert.KernelIdeal.cfgs (Cert.KernelIdeal.Gen.dats (F := Ideal) m) 0 (Cert.KernelIdeal.Gen.V0 m)
              [Cert.KernelIdeal.Gen.hostOps1] c Cert.KernelIdeal.main_v22
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  open Cert.KernelIdeal Cert.KernelIdeal.Gen in
  refine (θ_run Cert.KernelIdeal.defs _ _).mono (fun _ h c => ⟨?_, ?_, ?_, ?_, ?_, ?_⟩) (run_main m ρ)
  · exact (h c).2 main_v22 (Pipeline.mem_restRefs_of main_v22 (by decide) (by decide))
  · exact ((h c).2 main_arg0 (Pipeline.mem_restRefs_of main_arg0 (by decide) (by decide))).trans (W_main_arg0 m (dats m) c)
  · exact ((h c).1 0).trans (((dats m 0 c).arrAt_in 0 rfl _).trans ((A_eq m c 0).trans (V_main_arg1 m c)))
  · exact ((h c).1 1).trans (((dats m 0 c).arrAt_in 1 rfl _).trans ((A_eq m c 1).trans (V_main_arg2 m c)))
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the same array: at every column the reference's closing expression is the kernel's, by the
    histogram law over the reals, with the facts the precondition gives (all entries real, row numbers in range). -/
theorem algebraic : Cert.algebraic_KernelIdeal_ReferenceIdeal := by
  intro m ρ m' ρ' hpre hagree
  refine ⟨fun c => Pipeline.afterTail₀ Cert.KernelIdeal.cfgs (Cert.KernelIdeal.Gen.dats (F := Ideal) m) 0 (Cert.KernelIdeal.Gen.V0 m)
      [Cert.KernelIdeal.Gen.hostOps1] c Cert.KernelIdeal.main_v22, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, h3, h4, hr⟩ := Cert.PreFacts.of_pre _ _ _ _ _ (hpre c)
  rw [Cert.ReferenceIdeal.Read.val_main_v27_eq, (hagree c).1, (hagree c).2.1, (hagree c).2.2.1, (hagree c).2.2.2.1,
    (hagree c).2.2.2.2]
  funext i
  obtain ⟨a, b, j, rfl⟩ : ∃ (a : Fin 1) (b : Fin 1) (j : Fin 256), i = ix3 a b j := ⟨i 0, i 1, i 2, eq_ix3 i⟩
  obtain rfl : a = 0 := Subsingleton.elim _ _
  obtain rfl : b = 0 := Subsingleton.elim _ _
  rw [Cert.ReferenceIdeal.RefValue.ref_apply _ hr]
  refine Eq.trans ?_ (Cert.KernelIdeal.Tail.tail_apply m c j).symm
  rw [Cert.KernelIdeal.Region.final3, Cert.KernelIdeal.Region.final4, Cert.KernelIdeal.Gen.V_main_arg1,
    Cert.KernelIdeal.Gen.V_main_arg2]
  exact (Cert.Spec.kernel_eq_ref _ hr _ _ _ _ h1 h2 h3 h4 _ (fun v => Cert.KernelIdeal.Counts.counts_apply m c hr v) j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
